-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_200" .f32 0x3BA3D70A#32 ((1 / 200 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128x96x96x96 : Shape := ⟨5, ![1, 128, 96, 96, 96]⟩
abbrev S100000x3 : Shape := ⟨2, ![100000, 3]⟩
abbrev S100000x128 : Shape := ⟨2, ![100000, 128]⟩
abbrev S_ : Shape := ⟨0, ![]⟩

class Facts : Prop where
  bcast_S_S1x128x96x96x96 : S_.BroadcastsInDim S1x128x96x96x96 (![] : Fin 0 → Fin S1x128x96x96x96.rank)
  reducesTo_S1x128x96x96x96_S_d0_1_2_3_4 : S1x128x96x96x96.ReducesTo [0, 1, 2, 3, 4] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S100000x3 : S_.BroadcastsInDim S100000x3 (![] : Fin 0 → Fin S100000x3.rank)
  reducesTo_S100000x3_S_d0_1 : S100000x3.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1x128x96x96x96 .f32) (main_arg1 : IVec S100000x3 32) (main_arg2 : FVec F S100000x128 .f32) : IVec S_ 1 :=
  let main_v0 : FVec F S1x128x96x96x96 .f32 := Host.absf main_arg0
  let main_cst : FVec F S_ .f32 := constant S_ .f32 0x7F800000#32
  let main_v1 : FVec F S1x128x96x96x96 .f32 := broadcastInDim S1x128x96x96x96 ![] bcast_S_S1x128x96x96x96 main_cst
  let main_v2 : IVec S1x128x96x96x96 1 := cmpf .olt main_v0 main_v1
  let main_c : IVec S_ 1 := constantI S_ 1 1#1
  let main_v3 : IVec S_ 1 := (fun x v => Host.reduce IntOp.andi x v reducesTo_S1x128x96x96x96_S_d0_1_2_3_4 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_c_2 : IVec S_ 32 := constantI S_ 32 0#32
  let main_v9 : IVec S100000x3 32 := broadcastInDim S100000x3 ![] bcast_S_S100000x3 main_c_2
  let main_v10 : IVec S100000x3 1 := cmpi .sge main_arg1 main_v9
  let main_c_3 : IVec S_ 1 := constantI S_ 1 1#1
  let main_v11 : IVec S_ 1 := (fun x v => Host.reduce IntOp.andi x v reducesTo_S100000x3_S_d0_1 h_S_) main_v10 main_c_3
  let main_v12 : IVec S_ 1 := andi main_v8 main_v11
  let main_c_4 : IVec S_ 32 := constantI S_ 32 96#32
  let main_v13 : IVec S100000x3 32 := broadcastInDim S100000x3 ![] bcast_S_S100000x3 main_c_4
  let main_v14 : IVec S100000x3 1 := cmpi .slt main_arg1 main_v13
  let main_c_5 : IVec S_ 1 := constantI S_ 1 1#1
  let main_v15 : IVec S_ 1 := (fun x v => Host.reduce IntOp.andi x v reducesTo_S100000x3_S_d0_1 h_S_) main_v14 main_c_5
  fn_part1 (F := F) main_v12 main_v15
-- ==== Kernel.lean ====
abbrev S1x128x96x96x96 : Shape := ⟨5, ![1, 128, 96, 96, 96]⟩
abbrev S100000x3 : Shape := ⟨2, ![100000, 3]⟩
abbrev S100000x128 : Shape := ⟨2, ![100000, 128]⟩
abbrev S128x96x96x96 : Shape := ⟨4, ![128, 96, 96, 96]⟩
abbrev S128x884736 : Shape := ⟨2, ![128, 884736]⟩
abbrev S884736x128 : Shape := ⟨2, ![884736, 128]⟩
abbrev S128x8192 : Shape := ⟨2, ![128, 8192]⟩
abbrev S8192x128 : Shape := ⟨2, ![8192, 128]⟩
abbrev S100000x1 : Shape := ⟨2, ![100000, 1]⟩
abbrev S100000 : Shape := ⟨1, ![100000]⟩
abbrev S_ : Shape := ⟨0, ![]⟩
abbrev S1 : Shape := ⟨1, ![1]⟩
abbrev S1x1 : Shape := ⟨2, ![1, 1]⟩
abbrev S10000x128 : Shape := ⟨2, ![10000, 128]⟩
abbrev S10000 : Shape := ⟨1, ![10000]⟩
abbrev S10000x1 : Shape := ⟨2, ![10000, 1]⟩

abbrev nBuf : Space → Nat
  | .hbm => 45
  | .vmem => 10
  | .smem => 0
  | _ => 0

abbrev bufTy : (tb : Table) → Fin (tcTables nBuf tb) → BufTy
  | .hbm, ⟨0, _⟩ => ⟨S1x128x96x96x96, .f32⟩
  | .hbm, ⟨1, _⟩ => ⟨S100000x3, .i32⟩
  | .hbm, ⟨2, _⟩ => ⟨S100000x128, .f32⟩
  | .hbm, ⟨3, _⟩ => ⟨S128x96x96x96, .f32⟩
  | .hbm, ⟨4, _⟩ => ⟨S128x884736, .f32⟩
  | .hbm, ⟨5, _⟩ => ⟨S884736x128, .f32⟩
  | .hbm, ⟨6, _⟩ => ⟨S100000x1, .i32⟩
  | .hbm, ⟨7, _⟩ => ⟨S100000, .i32⟩
  | .hbm, ⟨8, _⟩ => ⟨S_, .i32⟩
  | .hbm, ⟨9, _⟩ => ⟨S100000, .i32⟩
  | .hbm, ⟨10, _⟩ => ⟨S100000, .i32⟩
  | .hbm, ⟨11, _⟩ => ⟨S100000x1, .i32⟩
  | .hbm, ⟨12, _⟩ => ⟨S100000, .i32⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S100000x1, .i32⟩
  | .hbm, ⟨18, _⟩ => ⟨S100000, .i32⟩
  | .hbm, ⟨19, _⟩ => ⟨S100000, .i32⟩
  | .hbm, ⟨20, _⟩ => ⟨S_, .i32⟩
  | .hbm, ⟨21, _⟩ => ⟨S100000, .i32⟩
  | .hbm, ⟨22, _⟩ => ⟨S100000, .i1⟩
  | .hbm, ⟨23, _⟩ => ⟨S_, .i32⟩
  | .hbm, ⟨24, _⟩ => ⟨S100000, .i32⟩
  | .hbm, ⟨25, _⟩ => ⟨S100000, .i32⟩
  | .hbm, ⟨26, _⟩ => ⟨S100000, .i32⟩
  | .hbm, ⟨27, _⟩ => ⟨S100000x1, .i32⟩
  | .hbm, ⟨28, _⟩ => ⟨S1, .i32⟩
  | .hbm, ⟨29, _⟩ => ⟨S_, .i32⟩
  | .hbm, ⟨30, _⟩ => ⟨S100000x1, .i32⟩
  | .hbm, ⟨31, _⟩ => ⟨S100000x1, .i1⟩
  | .hbm, ⟨32, _⟩ => ⟨S1x1, .i32⟩
  | .hbm, ⟨33, _⟩ => ⟨S100000x1, .i32⟩
  | .hbm, ⟨34, _⟩ => ⟨S100000x1, .i1⟩
  | .hbm, ⟨35, _⟩ => ⟨S100000x1, .i1⟩
  | .hbm, ⟨36, _⟩ => ⟨S_, .i1⟩
  | .hbm, ⟨37, _⟩ => ⟨S100000, .i1⟩
  | .hbm, ⟨38, _⟩ => ⟨S100000x128, .f32⟩
  | .hbm, ⟨39, _⟩ => ⟨S100000x128, .i1⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S1x1, .f32⟩
  | .hbm, ⟨44, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S8192x128, .f32⟩
  | .local _ .vmem, ⟨3, _⟩ => ⟨S8192x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S1x1, .f32⟩
  | .local _ .vmem, ⟨9, _⟩ => ⟨S1x1, .f32⟩
  | _, _ => ⟨S1x128x96x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8

abbrev nD : Nat := 1
abbrev τ : Topo := Topo.v7x

variable {F : FTy → Type} [FloatOps F]

abbrev grid0 : Pipeline.Grid := ⟨1, ![108], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v19 : BitVec 1 := Scalar.cmpi .eq arg0 c9_i32
  let v20 : BitVec 32 := Scalar.extui v19
  let c0_i32_10 : BitVec 32 := 0#32
  let v21 : BitVec 1 := Scalar.cmpi .ne v20 c0_i32_10
  v21

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S1x128x96x96x96_S128x96x96x96 : S1x128x96x96x96.ShapeCasts S128x96x96x96
  shapeCasts_S128x96x96x96_S128x884736 : S128x96x96x96.ShapeCasts S128x884736
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  transposes_S128x8192_p1_0_S8192x128 : S128x8192.Transposes [1, 0] S8192x128
  inb_S8192x128_S8192x128_0_0 : ∀ a, (![0, 0] : Fin 2 → Nat) a + S8192x128.size a ≤ S8192x128.size a
  h_S8192x128 : 0 < S8192x128.numel
  slices_S100000x3_S100000x1_0_0 : S100000x3.Slices ![0, 0] S100000x1
  shapeCasts_S100000x1_S100000 : S100000x1.ShapeCasts S100000
  bcast_S_S100000 : S_.BroadcastsInDim S100000 (![] : Fin 0 → Fin S100000.rank)
  slices_S100000x3_S100000x1_0_1 : S100000x3.Slices ![0, 1] S100000x1
  slices_S100000x3_S100000x1_0_2 : S100000x3.Slices ![0, 2] S100000x1
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S10000x128_S10000 : S10000x128.Reduces [1] S10000
  shapeCasts_S10000_S10000x1 : S10000.ShapeCasts S10000x1
  reduces_S10000x1_S1 : S10000x1.Reduces [0] S1
  shapeCasts_S1_S1x1 : S1.ShapeCasts S1x1
  shapeCasts_S1x1_S_ : S1x1.ShapeCasts S_
  gather_S884736x128_S100000x1_S100000x128_1_0_n_n_0_1_1128_wf : GatherDims.WF S884736x128 S100000x1 S100000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S128x884736.size a
  hwx0_0 : ∀ i : grid0.Coords, EltTy.bits .f32 = 32 ∨ (Rect.block (s := S128x884736) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S884736x128.size a
  hwx0_1 : ∀ i : grid0.Coords, EltTy.bits .f32 = 32 ∨ (Rect.block (s := S884736x128) S8192x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def gather_S884736x128_S100000x1_S100000x128_1_0_n_n_0_1_1128 : GatherDims S884736x128 S100000x1 S100000x128 where
  offsetDims := [1]
  collapsedSliceDims := [0]
  operandBatchingDims := []
  startIndicesBatchingDims := []
  startIndexMap := [0]
  indexVectorDim := 1
  sliceSizes := ![1, 128]
  wf := gather_S884736x128_S100000x1_S100000x128_1_0_n_n_0_1_1128_wf

abbrev win0_0 : Pipeline.Window sig grid0 :=
  Pipeline.Window.ofSpec (Memref.whole main_v1) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v15) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S1x128x96x96x96 : Shape := ⟨5, ![1, 128, 96, 96, 96]⟩
abbrev S100000x3 : Shape := ⟨2, ![100000, 3]⟩
abbrev S100000x128 : Shape := ⟨2, ![100000, 128]⟩
abbrev S128x96x96x96 : Shape := ⟨4, ![128, 96, 96, 96]⟩
abbrev S100000x1 : Shape := ⟨2, ![100000, 1]⟩
abbrev S100000 : Shape := ⟨1, ![100000]⟩
abbrev S_ : Shape := ⟨0, ![]⟩
abbrev S128x100000 : Shape := ⟨2, ![128, 100000]⟩

abbrev nBuf : Space → Nat
  | .hbm => 44
  | .vmem => 0
  | .smem => 0
  | _ => 0

abbrev bufTy : (tb : Table) → Fin (tcTables nBuf tb) → BufTy
  | .hbm, ⟨0, _⟩ => ⟨S1x128x96x96x96, .f32⟩
  | .hbm, ⟨1, _⟩ => ⟨S100000x3, .i32⟩
  | .hbm, ⟨2, _⟩ => ⟨S100000x128, .f32⟩
  | .hbm, ⟨3, _⟩ => ⟨S128x96x96x96, .f32⟩
  | .hbm, ⟨4, _⟩ => ⟨S100000x1, .i32⟩
  | .hbm, ⟨5, _⟩ => ⟨S100000, .i32⟩
  | .hbm, ⟨6, _⟩ => ⟨S100000x1, .i32⟩
  | .hbm, ⟨7, _⟩ => ⟨S100000, .i32⟩
  | .hbm, ⟨8, _⟩ => ⟨S100000x1, .i32⟩
  | .hbm, ⟨9, _⟩ => ⟨S100000, .i32⟩
  | .hbm, ⟨10, _⟩ => ⟨S_, .i32⟩
  | .hbm, ⟨11, _⟩ => ⟨S100000, .i32⟩
  | .hbm, ⟨12, _⟩ => ⟨S100000, .i1⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S_, .i32⟩
  | .hbm, ⟨18, _⟩ => ⟨S100000, .i32⟩
  | .hbm, ⟨19, _⟩ => ⟨S100000, .i1⟩
  | .hbm, ⟨20, _⟩ => ⟨S_, .i32⟩
  | .hbm, ⟨21, _⟩ => ⟨S100000, .i32⟩
  | .hbm, ⟨22, _⟩ => ⟨S100000, .i32⟩
  | .hbm, ⟨23, _⟩ => ⟨S100000, .i32⟩
  | .hbm, ⟨24, _⟩ => ⟨S_, .i32⟩
  | .hbm, ⟨25, _⟩ => ⟨S100000, .i32⟩
  | .hbm, ⟨26, _⟩ => ⟨S100000, .i1⟩
  | .hbm, ⟨27, _⟩ => ⟨S_, .i32⟩
  | .hbm, ⟨28, _⟩ => ⟨S100000, .i32⟩
  | .hbm, ⟨29, _⟩ => ⟨S100000, .i32⟩
  | .hbm, ⟨30, _⟩ => ⟨S100000, .i32⟩
  | .hbm, ⟨31, _⟩ => ⟨S100000x1, .i32⟩
  | .hbm, ⟨32, _⟩ => ⟨S100000x1, .i32⟩
  | .hbm, ⟨33, _⟩ => ⟨S100000x1, .i32⟩
  | .hbm, ⟨34, _⟩ => ⟨S100000x3, .i32⟩
  | .hbm, ⟨35, _⟩ => ⟨S128x100000, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S128x100000, .f32⟩
  | .hbm, ⟨40, _⟩ => ⟨S128x100000, .f32⟩
  | .hbm, ⟨41, _⟩ => ⟨S128x100000, .f32⟩
  | .hbm, ⟨42, _⟩ => ⟨S_, .f32⟩
  | .hbm, ⟨43, _⟩ => ⟨S_, .f32⟩
  | _, _ => ⟨S1x128x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  shapeCasts_S1x128x96x96x96_S128x96x96x96 : S1x128x96x96x96.ShapeCasts S128x96x96x96
  slices_S100000x3_S100000x1_0_0 : S100000x3.Slices ![0, 0] S100000x1
  shapeCasts_S100000x1_S100000 : S100000x1.ShapeCasts S100000
  slices_S100000x3_S100000x1_0_1 : S100000x3.Slices ![0, 1] S100000x1
  slices_S100000x3_S100000x1_0_2 : S100000x3.Slices ![0, 2] S100000x1
  bcast_S_S100000 : S_.BroadcastsInDim S100000 (![] : Fin 0 → Fin S100000.rank)
  bcast_S100000_S100000x1_0 : S100000.BroadcastsInDim S100000x1 (![0] : Fin 1 → Fin S100000x1.rank)
  concatenates_S100000x1_S100000x1_S100000x1_S100000x3_d1 : Shape.Concatenates [S100000x1, S100000x1, S100000x1] S100000x3 1
  bcast_S_S100000x128 : S_.BroadcastsInDim S100000x128 (![] : Fin 0 → Fin S100000x128.rank)
  transposes_S100000x128_S128x100000_1_0 : S100000x128.Transposes [1, 0] S128x100000
  reducesTo_S128x100000_S_d0_1 : S128x100000.ReducesTo [0, 1] S_
  h_S_ : 0 < S_.numel
  gather_S128x96x96x96_S100000x3_S128x100000_0_123_n_n_123_1_128111_wf : GatherDims.WF S128x96x96x96 S100000x3 S128x100000 [0] [1, 2, 3] [] [1, 2, 3] [] 1 ![128, 1, 1, 1]

variable [Facts₀]

def gather_S128x96x96x96_S100000x3_S128x100000_0_123_n_n_123_1_128111 : GatherDims S128x96x96x96 S100000x3 S128x100000 where
  offsetDims := [0]
  collapsedSliceDims := [1, 2, 3]
  operandBatchingDims := []
  startIndicesBatchingDims := []
  startIndexMap := [1, 2, 3]
  indexVectorDim := 1
  sliceSizes := ![128, 1, 1, 1]
  wf := gather_S128x96x96x96_S100000x3_S128x100000_0_123_n_n_123_1_128111_wf

class Facts : Prop extends Facts₀ where

variable [Facts]
-- ==== Proof.K.Transpose.lean ====
/-
  The first kernel region: the [128, 884736] volume is turned into its [884736, 128] transpose, 8192 columns at a
  grid point. At point t the body reads the whole [128, 8192] column block and stores its transpose as the whole
  [8192, 128] row block of the result; nothing is kept between points. Everything is stated at the contents `V`
  the region finds in the core's buffers.
-/
import proofs.«407288_j86517821210741_1_alg».proof.Proof.Gen.Kernel.Launch
import proofs.«407288_j86517821210741_1_alg».proof.Proof.Gen.Kernel.Skeleton
import proofs.«407288_j86517821210741_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body reads and what it stores -/

/-- Window `w`'s block at point `t` of the array the region finds. For the operand (w = 0) these are columns
    8192·t … 8192·t + 8191 of the volume. -/
def tblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The operand's staging buffer holds the column block at every point: the window is fetched at each point, whole. -/
theorem tbefore_in {c : Dev nD} (dat : Dat τ (Elt F) Unit ℕ (UR sig nD τ) ℕ cfg0 c) (hA : dat.A 0 = V c (Pipeline.arrRef spec0 0))
    (hafter : ∀ t, dat.after 0 t = tblk V c 0 t) (t : Fin cfg0.N) (d) : dat.before 0 t d = tblk V c 0 t :=
  (dat.before_in_eq_fetched 0 rfl (fun _ => rfl) (fun _ _ _ => rfl) (fun t => by rw [hafter]; unfold Dat.blockOf tblk; rw [hA]; try rfl) t d).trans
    (by unfold Dat.fetched Dat.blockOf tblk; rw [hA]; try rfl)

/-- The whole [128, 8192] buffer and the whole [8192, 128] buffer, as rectangles. -/
abbrev rIn : Rect S128x8192 := Rect.unit (s := S128x8192) ![0, 0] S128x8192.size inb_S128x8192_S128x8192_0_0
abbrev rOut : Rect S8192x128 := Rect.unit (s := S8192x128) ![0, 0] S8192x128.size inb_S8192x128_S8192x128_0_0

/-- The result buffer after the body: the one store, of the transposed block, over the whole buffer. -/
def tstored (x : Vec F S128x8192 .f32) : Vec F S8192x128 .f32 :=
  View.canon [⟨rOut, k0_pay1 (View.ld x rIn)⟩]

theorem tstored_cover (p : Vec F S8192x128 .f32) (y : S8192x128.Idx) :
    ∃ pc ∈ ([⟨rOut, p⟩] : List (View.Piece (Elt F) S8192x128 .f32)), y ∈ pc.1.set :=
  View.cover_of_tiled [⟨rOut, p⟩] S8192x128.size (by rfl) y

/-! ## The body's triple -/

set_option maxHeartbeats 1000000 in
/-- On whole staging memrefs, the operand's at contents `x` and the result's at anything, the body runs to the
    continuation with the operand's untouched and the result's at the transposed block. -/
theorem transpose_body (c : Dev nD) (E : Set ℕ) (i : grid0.Coords) (arg1 : Memref sig .tc .vmem S128x8192 .f32) (harg1 : arg1.IsWhole)
    (arg2 : Memref sig .tc .vmem S8192x128 .f32) (harg2 : arg2.IsWhole)
    (x : Vec F S128x8192 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (tstored x)) -∗ K ⟨⟩))
      ⊢ wp frame (wpE (defs₀ (F := F)) Variants.none c none) E (cc0__transpose_kernel i arg1 harg1 arg2 harg2) K := by
  simp only [cc0__transpose_kernel_eq_skeleton]; unfold cc0__transpose_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (tstored_cover _)

/-! ## The proof data and the body obligation -/

/-- Pipeline 0's proof data: the arrays as found; after the body the operand's buffer still at the column block and the
    result's at its transpose; between points only the class's invariant (scoped buffers at anything, the generator
    register); nothing owed. -/
def datT (c : Dev nD) : Dat τ (Elt F) Unit ℕ (UR sig nD τ) ℕ cfg0 c where
  A w := V c (Pipeline.arrRef spec0 w)
  after w t := match w with
    | ⟨0, _⟩ => tblk V c 0 t
    | ⟨1, _⟩ => tstored (tblk V c 0 t)
  Φ _ := Pipeline.ΦA spec0 c
  q _ := fullShare
  owed _ := 0

theorem datT_A (c : Dev nD) (w : Fin cfg0.W) : (datT V c).A w = V c (Pipeline.arrRef spec0 w) := by dsimp only [datT]
theorem datT_after0 (c : Dev nD) (t : Fin cfg0.N) : (datT V c).after 0 t = tblk V c 0 t := by dsimp only [datT]
theorem datT_after1 (c : Dev nD) (t : Fin cfg0.N) : (datT V c).after 1 t = tstored (tblk V c 0 t) := by dsimp only [datT]
theorem datT_before0 (c : Dev nD) (t : Fin cfg0.N) (d) : (datT V c).before 0 t d = tblk V c 0 t :=
  tbefore_in V (datT V c) (datT_A V c 0) (datT_after0 V c) t d

/-- The body at any point, between the invariant's two copies. -/
theorem transpose_point (c : Dev nD) (t : Fin cfg0.N) :
    iprop((datT V c).Φ t.castSucc ∗ (datT V c).owesAt () t.castSucc
        ∗ (∃ d, owns (c : Thread nD τ) (st0_0 t) fullShare ((datT V c).before 0 t d))
        ∗ (∃ d, owns (c : Thread nD τ) (st0_1 t) fullShare ((datT V c).before 1 t d)))
      ⊢ wp frame (wpE (defs₀ (F := F)) Variants.none c none) Set.univ (bodyAt0 t) (fun _ =>
        iprop((datT V c).Φ t.succ ∗ (datT V c).owesAt () t.succ
          ∗ owns (c : Thread nD τ) (st0_0 t) fullShare ((datT V c).after 0 t)
          ∗ owns (c : Thread nD τ) (st0_1 t) fullShare ((datT V c).after 1 t))) := by
  unfold bodyAt0
  simp only [datT_before0]
  rw [show (datT V c).Φ t.succ = (datT V c).Φ t.castSucc from rfl,
    show (datT V c).owesAt () t.succ = (datT V c).owesAt () t.castSucc from rfl,
    datT_after0, datT_after1]
  iintro ⟨HΦ, Ho, ⟨%d0, H0⟩, ⟨%d1, H1⟩⟩
  iapply (transpose_body c Set.univ _ _ _ _ _ (tblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem transpose_obligation (c : Dev nD) : BodyObligation (datT (F := F) V c) (defs₀ (F := F)) Variants.none () Set.univ := fun t => by
  rw [bigSep_W0, bigSep_W0]
  exact transpose_point V c t

end Cert.Kernel.Hand

end
-- ==== Proof.K.Reduce.lean ====
/-
  The second kernel region: the sum over all points and channels of (gathered − feature · scale)², 10000 rows at a
  grid point, accumulated in a one-word scratch buffer that is reset at the first point and copied to the [1, 1]
  result at the last. Stated at the contents `V` the region finds in the core's buffers.
-/
import proofs.«407288_j86517821210741_1_alg».proof.Proof.Gen.Kernel.Launch
import proofs.«407288_j86517821210741_1_alg».proof.Proof.Gen.Kernel.Skeleton
import proofs.«407288_j86517821210741_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions and the whole-buffer rectangles -/

/-- The body's first branch condition, as the kernel computes it from the grid coordinate: the coordinate is 0. -/
abbrev rcond1 (i : grid1.Coords) : Prop := (Scalar.cmpi .ne (Scalar.extui (Scalar.cmpi .eq (BitVec.ofNat 32 (i 0).val) 0#32)) 0#32) = 1#1
/-- The second: the coordinate is 9. -/
abbrev rcond2 (i : grid1.Coords) : Prop := k1_cond2 i = 1#1

/-- The offsets of every load and store of the body are zero. -/
theorem roff0 : (![0, 0] : Fin 2 → ℕ) = fun _ => 0 := funext fun a => by fin_cases a <;> rfl

/-- The whole [1, 1] buffer as a rectangle. -/
abbrev rW : Rect S1x1 := Rect.unit (s := S1x1) ![0, 0] S1x1.size inb_S1x1_S1x1_0_0

/-- Stores through the whole-buffer rectangle, the last of them covering, cover every index. -/
theorem rcover (L : List (View.Piece (Elt F) S1x1 .f32)) (p : Vec F S1x1 .f32) (y : S1x1.Idx) :
    ∃ pc ∈ ((⟨rW, p⟩ : View.Piece (Elt F) S1x1 .f32) :: L), y ∈ pc.1.set :=
  ⟨⟨rW, p⟩, List.mem_cons_self, View.mem_set_unit_zero roff0 inb_S1x1_S1x1_0_0 y⟩

/-! ## The body's triple, case by case -/

set_option maxHeartbeats 1000000 in
/-- Point 0: on whole memrefs, the two operand blocks at `x0`, `x1`, the result's at `xi` and the scratch word at anything,
    the body runs to the continuation with the operands and the result's buffer untouched and the scratch at the zero
    word plus the block's sum of squares. -/
theorem reduce_body_A (c : Dev nD) (E : Set ℕ) (i : grid1.Coords) (arg1 : Memref sig .tc .vmem S10000x128 .f32) (harg1 : arg1.IsWhole)
    (arg2 : Memref sig .tc .vmem S10000x128 .f32) (harg2 : arg2.IsWhole) (arg3 : Memref sig .tc .vmem S1x1 .f32) (harg3 : arg3.IsWhole)
    (arg4 : Memref sig .tc .vmem S1x1 .f32) (harg4 : arg4.IsWhole) (hc1 : rcond1 i) (hc2 : ¬rcond2 i)
    (x0 x1 : Vec F S10000x128 .f32) (xi : Vec F S1x1 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k1_pay2 x0 x1 (k1_pay1 (F := F)))) -∗ K ⟨⟩))
      ⊢ wp frame (wpE (defs₀ (F := F)) Variants.none c none) E (cc1__reduce_kernel i arg1 harg1 arg2 harg2 arg3 harg3 arg4 harg4) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (rcover _ _), View.canon_cons_unit_zero roff0]
  simp only [View.readAt_eq_ld, View.ld_unit_zero (S := S10000x128) roff0, View.readCov_unit_zero (S := S1x1) _ roff0]

set_option maxHeartbeats 1000000 in
/-- Points 1 … 8: on whole memrefs, the two operand blocks at `x0`, `x1`, the result's at `xi` and the scratch word at `a`,
    the body runs to the continuation with the operands and the result's buffer untouched and the scratch at `a` plus
    the block's sum of squares. -/
theorem reduce_body_B (c : Dev nD) (E : Set ℕ) (i : grid1.Coords) (arg1 : Memref sig .tc .vmem S10000x128 .f32) (harg1 : arg1.IsWhole)
    (arg2 : Memref sig .tc .vmem S10000x128 .f32) (harg2 : arg2.IsWhole) (arg3 : Memref sig .tc .vmem S1x1 .f32) (harg3 : arg3.IsWhole)
    (arg4 : Memref sig .tc .vmem S1x1 .f32) (harg4 : arg4.IsWhole) (hc1 : ¬rcond1 i) (hc2 : ¬rcond2 i)
    (x0 x1 : Vec F S10000x128 .f32) (xi a : Vec F S1x1 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare a
        ∗ (iprop(owns (c : Thread nD τ) arg1 fullShare x0 ∗ owns (c : Thread nD τ) arg2 fullShare x1 ∗ owns (c : Thread nD τ) arg3 fullShare xi
            ∗ owns (c : Thread nD τ) arg4 fullShare (k1_pay2 x0 x1 a)) -∗ K ⟨⟩))
      ⊢ wp frame (wpE (defs₀ (F := F)) Variants.none c none) E (cc1__reduce_kernel i arg1 harg1 arg2 harg2 arg3 harg3 arg4 harg4) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (rcover _ _), View.canon_unit_zero roff0]
  simp only [View.readAt_eq_ld, View.ld_unit_zero (S := S10000x128) roff0, View.ld_unit_zero (S := S1x1) roff0]

set_option maxHeartbeats 1000000 in
/-- Point 9: on whole memrefs, the two operand blocks at `x0`, `x1`, the result's at anything and the scratch word at `a`,
    the body runs to the continuation with the operands untouched and both the scratch and the result's buffer at `a`
    plus the block's sum of squares. -/
theorem reduce_body_C (c : Dev nD) (E : Set ℕ) (i : grid1.Coords) (arg1 : Memref sig .tc .vmem S10000x128 .f32) (harg1 : arg1.IsWhole)
    (arg2 : Memref sig .tc .vmem S10000x128 .f32) (harg2 : arg2.IsWhole) (arg3 : Memref sig .tc .vmem S1x1 .f32) (harg3 : arg3.IsWhole)
    (arg4 : Memref sig .tc .vmem S1x1 .f32) (harg4 : arg4.IsWhole) (hc1 : ¬rcond1 i) (hc2 : rcond2 i)
    (x0 x1 : Vec F S10000x128 .f32) (a : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare a
        ∗ (iprop(owns (c : Thread nD τ) arg1 fullShare x0 ∗ owns (c : Thread nD τ) arg2 fullShare x1 ∗ owns (c : Thread nD τ) arg3 fullShare (k1_pay2 x0 x1 a)
            ∗ owns (c : Thread nD τ) arg4 fullShare (k1_pay2 x0 x1 a)) -∗ K ⟨⟩))
      ⊢ wp frame (wpE (defs₀ (F := F)) Variants.none c none) E (cc1__reduce_kernel i arg1 harg1 arg2 harg2 arg3 harg3 arg4 harg4) K := by
  simp only [cc1__reduce_kernel_eq_skeleton]; unfold cc1__reduce_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (rcover _ _), View.canon_unit_zero roff0]
    simp only [View.readCov_unit_zero (S := S1x1) _ roff0, View.readAt_eq_ld, View.ld_unit_zero (S := S10000x128) roff0, View.ld_unit_zero (S := S1x1) roff0]
  iexists _; isplitr
  swap; · iexact H3
  ipureintro
  sl_unfold_run_names
  rw [View.read_writes_eq_canon _ _ _ (rcover _ _), View.canon_unit_zero roff0]
  simp only [View.readAt_eq_ld, View.ld_unit_zero (S := S10000x128) roff0, View.ld_unit_zero (S := S1x1) roff0]

variable (V : (c : Dev nD) → (b : Ref sig .tc) → Buf (Elt F) ((c : Thread nD τ).loc b))

/-! ## The blocks the body reads and the word it accumulates -/

/-- Window `w`'s block at point `t` of the array the region finds: rows 10000·t … 10000·t + 9999 of the gathered
    rows (w = 0) and of the feature rows (w = 1). -/
def rblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch word after point `n`: the first point starts from the zero word, each later one from what the point
    before left, and adds its block's sum of squares. -/
def accAt (c : Dev nD) : (n : ℕ) → n < cfg1.N → Vec F S1x1 .f32
  | 0, h => k1_pay2 (rblk V c 0 ⟨0, h⟩) (rblk V c 1 ⟨0, h⟩) (k1_pay1 (F := F))
  | n + 1, h => k1_pay2 (rblk V c 0 ⟨n + 1, h⟩) (rblk V c 1 ⟨n + 1, h⟩) (accAt c n (Nat.lt_of_succ_lt h))

theorem accAt_zero (c : Dev nD) (h : 0 < cfg1.N) :
    accAt V c 0 h = k1_pay2 (rblk V c 0 ⟨0, h⟩) (rblk V c 1 ⟨0, h⟩) (k1_pay1 (F := F)) := rfl
theorem accAt_succ (c : Dev nD) (n : ℕ) (h : n + 1 < cfg1.N) :
    accAt V c (n + 1) h = k1_pay2 (rblk V c 0 ⟨n + 1, h⟩) (rblk V c 1 ⟨n + 1, h⟩) (accAt V c n (Nat.lt_of_succ_lt h)) := rfl

/-- The word after the first point, stated at the point. -/
theorem accAt_first (c : Dev nD) (t : Fin cfg1.N) (h0 : t.val = 0) :
    accAt V c t.val t.isLt = k1_pay2 (rblk V c 0 t) (rblk V c 1 t) (k1_pay1 (F := F)) := by
  obtain ⟨n, hn⟩ := t
  cases n with
  | zero => rfl
  | succ n => exact absurd h0 (Nat.succ_ne_zero n)

/-- The word after a later point, stated at the point: the point's sum of squares added to the word the point before left. -/
theorem accAt_later (c : Dev nD) (t : Fin cfg1.N) (h0 : t.val ≠ 0) :
    accAt V c t.val t.isLt
      = k1_pay2 (rblk V c 0 t) (rblk V c 1 t) (accAt V c (t.val - 1) (Nat.lt_of_le_of_lt (Nat.sub_le _ _) t.isLt)) := by
  obtain ⟨n, hn⟩ := t
  cases n with
  | zero => exact absurd rfl h0
  | succ n => rfl

/-! ## The invariant between points -/

/-- The scratch word as a memref: the whole scoped [1, 1] buffer the kernel keeps between points. -/
abbrev scM : Memref sig .tc .vmem S1x1 .f32 := Memref.whole cc1_scratch0

/-- A whole buffer of the core at some contents. -/
abbrev anyAt (c : Dev nD) (b : Ref sig .tc) : sProp 𝕄 :=
  iprop(∃ f : Buf (Elt F) ((c : Thread nD τ).loc b), ((c : Thread nD τ).loc b) ↦{fullShare} f)

/-- The invariant's shape, with what it says of the scratch word left open (`X`): the four staging buffers of the first
    region at anything, `X`, and the generator register at some state. -/
def PhiRW (c : Dev nD) (X : sProp 𝕄) : sProp 𝕄 :=
  iprop(iprop(anyAt (F := F) c cc0_stg0_0 ∗ anyAt (F := F) c cc0_stg0_1 ∗ anyAt (F := F) c cc0_stg1_0 ∗ anyAt (F := F) c cc0_stg1_1 ∗ X)
    ∗ (∃ r, prngReg c r))

/-- The class's invariant is that shape with the scratch word owned at some contents. -/
theorem PhiA1_eq (c : Dev nD) :
    (Pipeline.ΦA spec1 c : sProp 𝕄) = PhiRW (F := F) c iprop(∃ d, owns (c : Thread nD τ) scM fullShare d) := by
  unfold Pipeline.ΦA PhiRW; rw [scopedRest1_eq]; simp only [scM, owns_whole]; try rfl

/-- What the invariant says of the scratch word may be weakened. -/
theorem PhiRW_mono (c : Dev nD) {X Y : sProp 𝕄} (h : X ⊢ Y) : PhiRW (F := F) c X ⊢ PhiRW (F := F) c Y := by
  unfold PhiRW
  iintro ⟨⟨R0, R1, R2, R3, HX⟩, Hg⟩
  isplitr [Hg]
  · isplitl [R0]; · iexact R0
    isplitl [R1]; · iexact R1
    isplitl [R2]; · iexact R2
    isplitl [R3]; · iexact R3
    iapply h; iexact HX
  iexact Hg

/-- The invariant before position `n`: before the first point the class's (the scratch word at anything); afterwards
    the scratch word at what the point before left. -/
def PhiR (c : Dev nD) : (n : ℕ) → n ≤ cfg1.N → sProp 𝕄
  | 0, _ => Pipeline.ΦA spec1 c
  | n + 1, hn => PhiRW (F := F) c (owns (c : Thread nD τ) scM fullShare (accAt V c n hn))

theorem PhiR_zero (c : Dev nD) (n : ℕ) (h : n ≤ cfg1.N) (hz : n = 0) : PhiR V c n h = Pipeline.ΦA spec1 c := by
  subst hz; rfl

theorem PhiR_succ (c : Dev nD) (n : ℕ) (hn : n < cfg1.N) :
    PhiR V c (n + 1) hn = PhiRW (F := F) c (owns (c : Thread nD τ) scM fullShare (accAt V c n hn)) := rfl

theorem PhiR_pos (c : Dev nD) (n : ℕ) (h : n ≤ cfg1.N) (hz : n ≠ 0) :
    PhiR V c n h = PhiRW (F := F) c (owns (c : Thread nD τ) scM fullShare (accAt V c (n - 1) (by omega))) := by
  cases n with
  | zero => exact absurd rfl hz
  | succ n => rfl

/-! ## The proof data -/

/-- Pipeline 1's proof data: the arrays as found; after the body the two operand buffers still at their blocks and the
    result's at the accumulated word; between points the invariant above; nothing owed. -/
def datR (c : Dev nD) : Dat τ (Elt F) Unit ℕ (UR sig nD τ) ℕ cfg1 c where
  A w := V c (Pipeline.arrRef spec1 w)
  after w t := match w with
    | ⟨0, _⟩ => rblk V c 0 t
    | ⟨1, _⟩ => rblk V c 1 t
    | ⟨2, _⟩ => accAt V c t.val t.isLt
  Φ t := PhiR V c t.val (Nat.le_of_lt_succ t.isLt)
  q _ := fullShare
  owed _ := 0

theorem datR_A (c : Dev nD) (w : Fin cfg1.W) : (datR V c).A w = V c (Pipeline.arrRef spec1 w) := by dsimp only [datR]
theorem datR_after0 (c : Dev nD) (t : Fin cfg1.N) : (datR V c).after 0 t = rblk V c 0 t := by dsimp only [datR]
theorem datR_after1 (c : Dev nD) (t : Fin cfg1.N) : (datR V c).after 1 t = rblk V c 1 t := by dsimp only [datR]
theorem datR_after2 (c : Dev nD) (t : Fin cfg1.N) : (datR V c).after 2 t = accAt V c t.val t.isLt := by dsimp only [datR]
theorem datR_owed (c : Dev nD) (t : Fin (cfg1.N + 1)) : (datR V c).owed t = 0 := rfl
theorem datR_q (c : Dev nD) (w : Fin cfg1.W) : (datR V c).q w = fullShare := rfl

/-- The invariant at a point's start, restated at the point's position. -/
theorem datR_Phi_castSucc (c : Dev nD) (t : Fin cfg1.N) :
    (datR V c).Φ t.castSucc = PhiR V c t.val (Nat.le_of_lt t.isLt) := by
  dsimp only [datR]; simp only [Fin.coe_castSucc]

/-- Each operand's current staging buffer holds its block at every point: the window is fetched at each point, whole,
    and the body leaves it in place. -/
theorem datR_before0 (c : Dev nD) (t : Fin cfg1.N) (d) : (datR V c).before 0 t d = rblk V c 0 t :=
  ((datR V c).before_in_eq_fetched 0 rfl (fun _ => rfl) (fun _ _ _ => rfl)
    (fun t => by rw [datR_after0]; unfold Dat.blockOf rblk; rw [datR_A]; try rfl) t d).trans
    (by unfold Dat.fetched Dat.blockOf rblk; rw [datR_A]; try rfl)
theorem datR_before1 (c : Dev nD) (t : Fin cfg1.N) (d) : (datR V c).before 1 t d = rblk V c 1 t :=
  ((datR V c).before_in_eq_fetched 1 rfl (fun _ => rfl) (fun _ _ _ => rfl)
    (fun t => by rw [datR_after1]; unfold Dat.blockOf rblk; rw [datR_A]; try rfl) t d).trans
    (by unfold Dat.fetched Dat.blockOf rblk; rw [datR_A]; try rfl)

/-! ## The conditions, the idle points and the write-back, decided over the grid -/

/-- The first condition holds at point 0 only. -/
theorem hrcond1 : ∀ t : Fin cfg1.N, rcond1 (grid1.coords t) ↔ t.val = 0 :=
  (by decide +kernel : ∀ t : Fin grid1.N, rcond1 (grid1.coords t) ↔ t.val = 0)
/-- The second holds at point 9 only. -/
theorem hrcond2 : ∀ t : Fin cfg1.N, rcond2 (grid1.coords t) ↔ t.val = 9 :=
  (by decide +kernel : ∀ t : Fin grid1.N, rcond2 (grid1.coords t) ↔ t.val = 9)

/-- The two operand windows are never idle. -/
theorem rlive0 : ∀ t : Fin cfg1.N, cfg1.idle 0 (grid1.coords t) = false := by decide +kernel
theorem rlive1 : ∀ t : Fin cfg1.N, cfg1.idle 1 (grid1.coords t) = false := by decide +kernel
/-- Away from the last point the result's window is idle (the body stores nothing into it) and is not written back. -/
theorem ridle2 : ∀ t : Fin cfg1.N, ¬rcond2 (grid1.coords t) → cfg1.idle 2 (grid1.coords t) = true := by decide +kernel
theorem rnoflush2 : ∀ t : Fin cfg1.N, ¬rcond2 (grid1.coords t) → (cfg1.win 2).flush t = false := by decide +kernel
/-- At the last point it is live. -/
theorem rlive2 : ∀ t : Fin cfg1.N, rcond2 (grid1.coords t) → cfg1.idle 2 (grid1.coords t) = false := by decide +kernel

/-! ## The body at a point, between the invariant's two copies -/

set_option maxHeartbeats 1000000 in
/-- The body at any point. The operand buffers hold their blocks; the point's position decides the case. At point 0
    the invariant hands over the scratch word at anything and takes it back at the first block's sum of squares; at a
    later point it hands it over at what the point before left and takes it back with this block's sum added. Away from
    point 9 the result's buffer is handed back as found; at point 9 it is left at the accumulated word. -/
theorem reduce_point (c : Dev nD) (t : Fin cfg1.N) :
    iprop((datR V c).Φ t.castSucc ∗ (datR V c).owesAt () t.castSucc
        ∗ (∃ d, owns (c : Thread nD τ) (st1_0 t) fullShare ((datR V c).before 0 t d))
        ∗ (∃ d, owns (c : Thread nD τ) (st1_1 t) fullShare ((datR V c).before 1 t d))
        ∗ (∃ d, owns (c : Thread nD τ) (st1_2 t) fullShare ((datR V c).before 2 t d)))
      ⊢ wp frame (wpE (defs₀ (F := F)) Variants.none c none) Set.univ (bodyAt1 t) (fun _ =>
        iprop((datR V c).Φ t.succ ∗ (datR V c).owesAt () t.succ
          ∗ (datR V c).leavesExact 0 t ∗ (datR V c).leavesExact 1 t ∗ (datR V c).leavesExact 2 t)) := by
  unfold bodyAt1
  simp only [datR_before0, datR_before1]
  rw [show (datR V c).owesAt () t.succ = (datR V c).owesAt () t.castSucc from rfl,
    show (datR V c).Φ t.succ = PhiR V c (t.val + 1) t.isLt from rfl, PhiR_succ, datR_Phi_castSucc,
    show (datR V c).leavesExact 0 t = owns (c : Thread nD τ) (st1_0 t) fullShare ((datR V c).after 0 t) from by
      unfold Dat.leavesExact; rw [rlive0 t],
    show (datR V c).leavesExact 1 t = owns (c : Thread nD τ) (st1_1 t) fullShare ((datR V c).after 1 t) from by
      unfold Dat.leavesExact; rw [rlive1 t],
    datR_after0, datR_after1]
  by_cases h0 : t.val = 0
  · -- point 0: reset, accumulate, the result's window idle
    have hc1 : rcond1 (grid1.coords t) := (hrcond1 t).mpr h0
    have hc2 : ¬rcond2 (grid1.coords t) := fun h => by have := (hrcond2 t).mp h; omega
    rw [Dat.leavesExact_idle (datR V c) 2 t (ridle2 t hc2) (rnoflush2 t hc2), PhiR_zero V c _ _ h0, PhiA1_eq,
      accAt_first V c t h0]
    unfold PhiRW
    iintro ⟨⟨⟨R0, R1, R2, R3, HS⟩, Hg⟩, Ho, ⟨%d0, H0⟩, ⟨%d1, H1⟩, ⟨%d2, H2⟩⟩
    iapply (reduce_body_A c Set.univ _ _ _ _ _ _ _ _ _ hc1 hc2 (rblk V c 0 t) (rblk V c 1 t) _ _)
    isplitl [H0]; · iexact H0
    isplitl [H1]; · iexact H1
    isplitl [H2]; · iexact H2
    isplitl [HS]; · iexact HS
    iintro ⟨H0, H1, H2, HS⟩
    isplitl [R0 R1 R2 R3 HS Hg]
    · isplitr [Hg]
      · isplitl [R0]; · iexact R0
        isplitl [R1]; · iexact R1
        isplitl [R2]; · iexact R2
        isplitl [R3]; · iexact R3
        iexact HS
      iexact Hg
    isplitl [Ho]; · iexact Ho
    isplitl [H0]; · iexact H0
    isplitl [H1]; · iexact H1
    iexists _; iexact H2
  · have hc1 : ¬rcond1 (grid1.coords t) := fun h => h0 ((hrcond1 t).mp h)
    rw [PhiR_pos V c _ _ h0, accAt_later V c t h0]
    unfold PhiRW
    by_cases h9 : t.val = 9
    · -- point 9: accumulate, copy the word to the result's buffer
      have hc2 : rcond2 (grid1.coords t) := (hrcond2 t).mpr h9
      rw [show (datR V c).leavesExact 2 t = owns (c : Thread nD τ) (st1_2 t) fullShare ((datR V c).after 2 t) from by
        unfold Dat.leavesExact; rw [rlive2 t hc2], datR_after2, accAt_later V c t h0]
      iintro ⟨⟨⟨R0, R1, R2, R3, HS⟩, Hg⟩, Ho, ⟨%d0, H0⟩, ⟨%d1, H1⟩, ⟨%d2, H2⟩⟩
      iapply (reduce_body_C c Set.univ _ _ _ _ _ _ _ _ _ hc1 hc2 (rblk V c 0 t) (rblk V c 1 t) _ _)
      isplitl [H0]; · iexact H0
      isplitl [H1]; · iexact H1
      isplitl [H2]; · iexists _; iexact H2
      isplitl [HS]; · iexact HS
      iintro ⟨H0, H1, H2, HS⟩
      isplitl [R0 R1 R2 R3 HS Hg]
      · isplitr [Hg]
        · isplitl [R0]; · iexact R0
          isplitl [R1]; · iexact R1
          isplitl [R2]; · iexact R2
          isplitl [R3]; · iexact R3
          iexact HS
        iexact Hg
      isplitl [Ho]; · iexact Ho
      isplitl [H0]; · iexact H0
      isplitl [H1]; · iexact H1
      iexact H2
    · -- points 1 … 8: accumulate, the result's window idle
      have hc2 : ¬rcond2 (grid1.coords t) := fun h => h9 ((hrcond2 t).mp h)
      rw [Dat.leavesExact_idle (datR V c) 2 t (ridle2 t hc2) (rnoflush2 t hc2)]
      iintro ⟨⟨⟨R0, R1, R2, R3, HS⟩, Hg⟩, Ho, ⟨%d0, H0⟩, ⟨%d1, H1⟩, ⟨%d2, H2⟩⟩
      iapply (reduce_body_B c Set.univ _ _ _ _ _ _ _ _ _ hc1 hc2 (rblk V c 0 t) (rblk V c 1 t) _ _ _)
      isplitl [H0]; · iexact H0
      isplitl [H1]; · iexact H1
      isplitl [H2]; · iexact H2
      isplitl [HS]; · iexact HS
      iintro ⟨H0, H1, H2, HS⟩
      isplitl [R0 R1 R2 R3 HS Hg]
      · isplitr [Hg]
        · isplitl [R0]; · iexact R0
          isplitl [R1]; · iexact R1
          isplitl [R2]; · iexact R2
          isplitl [R3]; · iexact R3
          iexact HS
        iexact Hg
      isplitl [Ho]; · iexact Ho
      isplitl [H0]; · iexact H0
      isplitl [H1]; · iexact H1
      iexists _; iexact H2

/-! ## The body obligation and the invariant's two ends -/

theorem reduce_obligation (c : Dev nD) : BodyObligation (datR (F := F) V c) (defs₀ (F := F)) Variants.none () Set.univ := fun t => by
  rw [bigSep_W1, bigSep_W1]
  exact reduce_point V c t

/-- What the launch hands the region is the invariant before the first point. -/
theorem datR_in (c : Dev nD) : (Pipeline.ΦA spec1 c : sProp 𝕄) ⊢ (datR V c).Φ 0 := by
  rw [show (datR V c).Φ 0 = PhiR V c 0 (Nat.zero_le _) from rfl, PhiR_zero V c 0 _ rfl]
  try exact Idealize.SL.BI.Entails.refl _

/-- After the last point the invariant gives the class's back: what the scratch word holds is forgotten. -/
theorem datR_out (c : Dev nD) : (datR V c).Φ (Fin.last cfg1.N) ⊢ (Pipeline.ΦA spec1 c : sProp 𝕄) := by
  rw [show (datR V c).Φ (Fin.last cfg1.N) = PhiR V c (Fin.last cfg1.N).val (Nat.le_of_lt_succ (Fin.last cfg1.N).isLt) from rfl,
    PhiR_pos V c _ _ (by rw [Fin.val_last]; have : cfg1.N = 10 := N_1; omega), PhiA1_eq]
  exact PhiRW_mono c (by iintro H; iexists _; iexact H)

end Cert.Kernel.Hand

end
-- ==== Proof.K.Run.lean ====
/-
  The whole run of the kernel's program: reshape the volume to a [128, 884736] table, transpose it (first region),
  compute each point's flat row index and select the rows (host lines), sum the squared differences (second region),
  reshape the [1, 1] result to a scalar. Between two items the core's unscoped buffers are held at named contents
  `WJ`: a host stretch applies its operations to the contents before it; a region replaces its windows' arrays by
  what its write-backs leave. The run ends with every unscoped buffer at `W6`; the arguments are among them and no item
  changes them.
-/
import proofs.«407288_j86517821210741_1_alg».proof.Proof.K.Transpose
import proofs.«407288_j86517821210741_1_alg».proof.Proof.K.Reduce
import proofs.«407288_j86517821210741_1_alg».proof.Proof.Gen.Kernel.Regions
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the two reshapes: the first region's entry. -/
abbrev W1 : Dev nD → Valuation τ sig (Elt F) := fun c => StableHlo.after hostOps0 (W0 m c)
abbrev entry0 : (c : Dev nD) → (b : Ref sig .tc) → Buf (Elt F) ((c : Thread nD τ).loc b) := fun c b => W1 m c b
/-- After the first region: its arrays at what the write-backs leave, everything else as entered. -/
def W2 (c : Dev nD) : Valuation τ sig (Elt F) :=
  Pipeline.withArrays spec0 c (W1 m c) fun w => (datT (entry0 m) c).arrAt w cfg0.N
theorem W2_arr (c : Dev nD) (w : Fin cfg0.W) :
    W2 m c (Proc.devRef .tc (Pipeline.arrRef spec0 w)) = (datT (entry0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev exit0 : (c : Dev nD) → (b : Ref sig .tc) → Buf (Elt F) ((c : Thread nD τ).loc b) := fun c b => W2 m c b
theorem exit0_arr (c : Dev nD) (w : Fin cfg0.W) : (datT (entry0 m) c).arrAt w cfg0.N = exit0 m c (Pipeline.arrRef spec0 w) :=
  (W2_arr m c w).symm
theorem exit0_rest (c : Dev nD) : ∀ b, b ∉ Finset.univ.image (Pipeline.arrRef spec0) → exit0 m c b = entry0 m c b :=
  fun b hb => W2_of_ne m c b fun w e => hb (Finset.mem_image.mpr ⟨w, Finset.mem_univ _, e⟩)

/-- After the index arithmetic, then after the row selection: the second region's entry. -/
abbrev W3 : Dev nD → Valuation τ sig (Elt F) := fun c => StableHlo.after hostOps1 (W2 m c)
abbrev W4 : Dev nD → Valuation τ sig (Elt F) := fun c => StableHlo.after hostOps1_1 (W3 m c)
abbrev entry1 : (c : Dev nD) → (b : Ref sig .tc) → Buf (Elt F) ((c : Thread nD τ).loc b) := fun c b => W4 m c b
/-- After the second region. -/
def W5 (c : Dev nD) : Valuation τ sig (Elt F) :=
  Pipeline.withArrays spec1 c (W4 m c) fun w => (datR (entry1 m) c).arrAt w cfg1.N
theorem W5_arr (c : Dev nD) (w : Fin cfg1.W) :
    W5 m c (Proc.devRef .tc (Pipeline.arrRef spec1 w)) = (datR (entry1 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev exit1 : (c : Dev nD) → (b : Ref sig .tc) → Buf (Elt F) ((c : Thread nD τ).loc b) := fun c b => W5 m c b
theorem exit1_arr (c : Dev nD) (w : Fin cfg1.W) : (datR (entry1 m) c).arrAt w cfg1.N = exit1 m c (Pipeline.arrRef spec1 w) :=
  (W5_arr m c w).symm
theorem exit1_rest (c : Dev nD) : ∀ b, b ∉ Finset.univ.image (Pipeline.arrRef spec1) → exit1 m c b = entry1 m c b :=
  fun b hb => W5_of_ne m c b fun w e => hb (Finset.mem_image.mpr ⟨w, Finset.mem_univ _, e⟩)
/-- After the last reshape: the end. -/
abbrev W6 : Dev nD → Valuation τ sig (Elt F) := fun c => StableHlo.after hostOps2 (W5 m c)

/-! ## No item changes an argument -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ hostOps2_writes (r := main_arg0) (by decide)
    _ = W4 m c (Proc.devRef .tc main_arg0) := W5_of_ne m c main_arg0 (by decide)
    _ = W3 m c (Proc.devRef .tc main_arg0) := StableHlo.after_of_writes_sub hostOps1_1 _ hostOps1_1_writes (r := main_arg0) (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps2 _ hostOps2_writes (r := main_arg1) (by decide)
    _ = W4 m c (Proc.devRef .tc main_arg1) := W5_of_ne m c main_arg1 (by decide)
    _ = W3 m c (Proc.devRef .tc main_arg1) := StableHlo.after_of_writes_sub hostOps1_1 _ hostOps1_1_writes (r := main_arg1) (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

/-- The feature rows are the second region's window 1: an input window's array is never written. -/
theorem W5_main_arg2 (c : Dev nD) : W5 m c (Proc.devRef .tc main_arg2) = W4 m c (Proc.devRef .tc main_arg2) :=
  (W5_arr m c 1).trans (((datR (entry1 m) c).arrAt_in 1 rfl _).trans (datR_A (entry1 m) c 1))

theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps2 _ hostOps2_writes (r := main_arg2) (by decide)
    _ = W4 m c (Proc.devRef .tc main_arg2) := W5_main_arg2 m c
    _ = W3 m c (Proc.devRef .tc main_arg2) := StableHlo.after_of_writes_sub hostOps1_1 _ hostOps1_1_writes (r := main_arg2) (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

/-! ## The proof data of both pipelines and what rides beside the buffers -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => datT (entry0 m) c
  | ⟨1, _⟩ => fun c => datR (entry1 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The transpose region: entered with the buffers at `W1`, left with them at `W2`. -/
def regT : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (transpose_obligation (entry0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The reduction region: entered with the buffers at `W4`, left with them at `W5`. Its invariant takes the class's
    scoped rest and generator register at the first point and gives them back after the last. -/
def regR : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (reduce_obligation (entry1 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec1 c : sProp 𝕄) ⊢ (pdats m 1 c).Φ 0 from datR_in (entry1 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from datR_out (entry1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The program's six items in order. -/
abbrev segs : List (Pipeline.Seg (pcfgs (F := F)) adm (pdats m) () defs₀ 𝒱₀ L lv) :=
  [ .host (hseg hostOps0 hostOps0_sub hostOps0_fresh (W0 m)),
    .region (regT m),
    .host (hseg hostOps1 hostOps1_sub hostOps1_fresh (W2 m)),
    .host (hseg hostOps1_1 hostOps1_1_sub hostOps1_1_fresh (W3 m)),
    .region (regR m),
    .host (hseg hostOps2 hostOps2_sub hostOps2_fresh (W5 m)) ]

set_option backward.isDefEq.respectTransparency.types false in
/-- Every weakly fair execution of the program from memory `m` with zero counters terminates, nothing faulting, with
    every unscoped buffer of every core at `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.Kernel.Hand

end
-- ==== Proof.KI.Transpose.lean ====
/-
  The first kernel region: the [128, 884736] volume is turned into its [884736, 128] transpose, 8192 columns at a
  grid point. At point t the body reads the whole [128, 8192] column block and stores its transpose as the whole
  [8192, 128] row block of the result; nothing is kept between points. Everything is stated at the contents `V`
  the region finds in the core's buffers.
-/
import proofs.«407288_j86517821210741_1_alg».proof.Proof.Gen.KernelIdeal.Launch
import proofs.«407288_j86517821210741_1_alg».proof.Proof.Gen.KernelIdeal.Skeleton
import proofs.«407288_j86517821210741_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The blocks the body reads and what it stores -/

/-- Window `w`'s block at point `t` of the array the region finds. For the operand (w = 0) these are columns
    8192·t … 8192·t + 8191 of the volume. -/
def tblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The operand's staging buffer holds the column block at every point: the window is fetched at each point, whole. -/
theorem tbefore_in {c : Dev nD} (dat : Dat τ (Elt F) Unit ℕ (UR sig nD τ) ℕ cfg0 c) (hA : dat.A 0 = V c (Pipeline.arrRef spec0 0))
    (hafter : ∀ t, dat.after 0 t = tblk V c 0 t) (t : Fin cfg0.N) (d) : dat.before 0 t d = tblk V c 0 t :=
  (dat.before_in_eq_fetched 0 rfl (fun _ => rfl) (fun _ _ _ => rfl) (fun t => by rw [hafter]; unfold Dat.blockOf tblk; rw [hA]; try rfl) t d).trans
    (by unfold Dat.fetched Dat.blockOf tblk; rw [hA]; try rfl)

/-- The whole [128, 8192] buffer and the whole [8192, 128] buffer, as rectangles. -/
abbrev rIn : Rect S128x8192 := Rect.unit (s := S128x8192) ![0, 0] S128x8192.size inb_S128x8192_S128x8192_0_0
abbrev rOut : Rect S8192x128 := Rect.unit (s := S8192x128) ![0, 0] S8192x128.size inb_S8192x128_S8192x128_0_0

/-- The result buffer after the body: the one store, of the transposed block, over the whole buffer. -/
def tstored (x : Vec F S128x8192 .f32) : Vec F S8192x128 .f32 :=
  View.canon [⟨rOut, k0_pay1 (View.ld x rIn)⟩]

theorem tstored_cover (p : Vec F S8192x128 .f32) (y : S8192x128.Idx) :
    ∃ pc ∈ ([⟨rOut, p⟩] : List (View.Piece (Elt F) S8192x128 .f32)), y ∈ pc.1.set :=
  View.cover_of_tiled [⟨rOut, p⟩] S8192x128.size (by rfl) y

/-! ## The body's triple -/

set_option maxHeartbeats 1000000 in
/-- On whole staging memrefs, the operand's at contents `x` and the result's at anything, the body runs to the
    continuation with the operand's untouched and the result's at the transposed block. -/
theorem transpose_body (c : Dev nD) (E : Set ℕ) (i : grid0.Coords) (arg1 : Memref sig .tc .vmem S128x8192 .f32) (harg1 : arg1.IsWhole)
    (arg2 : Memref sig .tc .vmem S8192x128 .f32) (harg2 : arg2.IsWhole)
    (x : Vec F S128x8192 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (tstored x)) -∗ K ⟨⟩))
      ⊢ wp frame (wpE (defs₀ (F := F)) Variants.none c none) E (cc0__transpose_kernel i arg1 harg1 arg2 harg2) K := by
  simp only [cc0__transpose_kernel_eq_skeleton]; unfold cc0__transpose_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (tstored_cover _)

/-! ## The proof data and the body obligation -/

/-- Pipeline 0's proof data: the arrays as found; after the body the operand's buffer still at the column block and the
    result's at its transpose; between points only the class's invariant (scoped buffers at anything, the generator
    register); nothing owed. -/
def datT (c : Dev nD) : Dat τ (Elt F) Unit ℕ (UR sig nD τ) ℕ cfg0 c where
  A w := V c (Pipeline.arrRef spec0 w)
  after w t := match w with
    | ⟨0, _⟩ => tblk V c 0 t
    | ⟨1, _⟩ => tstored (tblk V c 0 t)
  Φ _ := Pipeline.ΦA spec0 c
  q _ := fullShare
  owed _ := 0

theorem datT_A (c : Dev nD) (w : Fin cfg0.W) : (datT V c).A w = V c (Pipeline.arrRef spec0 w) := by dsimp only [datT]
theorem datT_after0 (c : Dev nD) (t : Fin cfg0.N) : (datT V c).after 0 t = tblk V c 0 t := by dsimp only [datT]
theorem datT_after1 (c : Dev nD) (t : Fin cfg0.N) : (datT V c).after 1 t = tstored (tblk V c 0 t) := by dsimp only [datT]
theorem datT_before0 (c : Dev nD) (t : Fin cfg0.N) (d) : (datT V c).before 0 t d = tblk V c 0 t :=
  tbefore_in V (datT V c) (datT_A V c 0) (datT_after0 V c) t d

/-- The body at any point, between the invariant's two copies. -/
theorem transpose_point (c : Dev nD) (t : Fin cfg0.N) :
    iprop((datT V c).Φ t.castSucc ∗ (datT V c).owesAt () t.castSucc
        ∗ (∃ d, owns (c : Thread nD τ) (st0_0 t) fullShare ((datT V c).before 0 t d))
        ∗ (∃ d, owns (c : Thread nD τ) (st0_1 t) fullShare ((datT V c).before 1 t d)))
      ⊢ wp frame (wpE (defs₀ (F := F)) Variants.none c none) Set.univ (bodyAt0 t) (fun _ =>
        iprop((datT V c).Φ t.succ ∗ (datT V c).owesAt () t.succ
          ∗ owns (c : Thread nD τ) (st0_0 t) fullShare ((datT V c).after 0 t)
          ∗ owns (c : Thread nD τ) (st0_1 t) fullShare ((datT V c).after 1 t))) := by
  unfold bodyAt0
  simp only [datT_before0]
  rw [show (datT V c).Φ t.succ = (datT V c).Φ t.castSucc from rfl,
    show (datT V c).owesAt () t.succ = (datT V c).owesAt () t.castSucc from rfl,
    datT_after0, datT_after1]
  iintro ⟨HΦ, Ho, ⟨%d0, H0⟩, ⟨%d1, H1⟩⟩
  iapply (transpose_body c Set.univ _ _ _ _ _ (tblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem transpose_obligation (c : Dev nD) : BodyObligation (datT (F := F) V c) (defs₀ (F := F)) Variants.none () Set.univ := fun t => by
  rw [bigSep_W0, bigSep_W0]
  exact transpose_point V c t

end Cert.KernelIdeal.Hand

end
-- ==== Proof.KI.Reduce.lean ====
/-
  The second kernel region: the sum over all points and channels of (gathered − feature · scale)², 10000 rows at a
  grid point, accumulated in a one-word scratch buffer that is reset at the first point and copied to the [1, 1]
  result at the last. Stated at the contents `V` the region finds in the core's buffers.
-/
import proofs.«407288_j86517821210741_1_alg».proof.Proof.Gen.KernelIdeal.Launch
import proofs.«407288_j86517821210741_1_alg».proof.Proof.Gen.KernelIdeal.Skeleton
import proofs.«407288_j86517821210741_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The branch conditions and the whole-buffer rectangles -/

/-- The body's first branch condition, as the kernel computes it from the grid coordinate: the coordinate is 0. -/
abbrev rcond1 (i : grid1.Coords) : Prop := (Scalar.cmpi .ne (Scalar.extui (Scalar.cmpi .eq (BitVec.ofNat 32 (i 0).val) 0#32)) 0#32) = 1#1
/-- The second: the coordinate is 9. -/
abbrev rcond2 (i : grid1.Coords) : Prop := k1_cond2 i = 1#1

/-- The offsets of every load and store of the body are zero. -/
theorem roff0 : (![0, 0] : Fin 2 → ℕ) = fun _ => 0 := funext fun a => by fin_cases a <;> rfl

/-- The whole [1, 1] buffer as a rectangle. -/
abbrev rW : Rect S1x1 := Rect.unit (s := S1x1) ![0, 0] S1x1.size inb_S1x1_S1x1_0_0

/-- Stores through the whole-buffer rectangle, the last of them covering, cover every index. -/
theorem rcover (L : List (View.Piece (Elt F) S1x1 .f32)) (p : Vec F S1x1 .f32) (y : S1x1.Idx) :
    ∃ pc ∈ ((⟨rW, p⟩ : View.Piece (Elt F) S1x1 .f32) :: L), y ∈ pc.1.set :=
  ⟨⟨rW, p⟩, List.mem_cons_self, View.mem_set_unit_zero roff0 inb_S1x1_S1x1_0_0 y⟩

/-! ## The body's triple, case by case -/

set_option maxHeartbeats 1000000 in
/-- Point 0: on whole memrefs, the two operand blocks at `x0`, `x1`, the result's at `xi` and the scratch word at anything,
    the body runs to the continuation with the operands and the result's buffer untouched and the scratch at the zero
    word plus the block's sum of squares. -/
theorem reduce_body_A (c : Dev nD) (E : Set ℕ) (i : grid1.Coords) (arg1 : Memref sig .tc .vmem S10000x128 .f32) (harg1 : arg1.IsWhole)
    (arg2 : Memref sig .tc .vmem S10000x128 .f32) (harg2 : arg2.IsWhole) (arg3 : Memref sig .tc .vmem S1x1 .f32) (harg3 : arg3.IsWhole)
    (arg4 : Memref sig .tc .vmem S1x1 .f32) (harg4 : arg4.IsWhole) (hc1 : rcond1 i) (hc2 : ¬rcond2 i)
    (x0 x1 : Vec F S10000x128 .f32) (xi : Vec F S1x1 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k1_pay2 x0 x1 (k1_pay1 (F := F)))) -∗ K ⟨⟩))
      ⊢ wp frame (wpE (defs₀ (F := F)) Variants.none c none) E (cc1__reduce_kernel i arg1 harg1 arg2 harg2 arg3 harg3 arg4 harg4) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (rcover _ _), View.canon_cons_unit_zero roff0]
  simp only [View.readAt_eq_ld, View.ld_unit_zero (S := S10000x128) roff0, View.readCov_unit_zero (S := S1x1) _ roff0]

set_option maxHeartbeats 1000000 in
/-- Points 1 … 8: on whole memrefs, the two operand blocks at `x0`, `x1`, the result's at `xi` and the scratch word at `a`,
    the body runs to the continuation with the operands and the result's buffer untouched and the scratch at `a` plus
    the block's sum of squares. -/
theorem reduce_body_B (c : Dev nD) (E : Set ℕ) (i : grid1.Coords) (arg1 : Memref sig .tc .vmem S10000x128 .f32) (harg1 : arg1.IsWhole)
    (arg2 : Memref sig .tc .vmem S10000x128 .f32) (harg2 : arg2.IsWhole) (arg3 : Memref sig .tc .vmem S1x1 .f32) (harg3 : arg3.IsWhole)
    (arg4 : Memref sig .tc .vmem S1x1 .f32) (harg4 : arg4.IsWhole) (hc1 : ¬rcond1 i) (hc2 : ¬rcond2 i)
    (x0 x1 : Vec F S10000x128 .f32) (xi a : Vec F S1x1 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare a
        ∗ (iprop(owns (c : Thread nD τ) arg1 fullShare x0 ∗ owns (c : Thread nD τ) arg2 fullShare x1 ∗ owns (c : Thread nD τ) arg3 fullShare xi
            ∗ owns (c : Thread nD τ) arg4 fullShare (k1_pay2 x0 x1 a)) -∗ K ⟨⟩))
      ⊢ wp frame (wpE (defs₀ (F := F)) Variants.none c none) E (cc1__reduce_kernel i arg1 harg1 arg2 harg2 arg3 harg3 arg4 harg4) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (rcover _ _), View.canon_unit_zero roff0]
  simp only [View.readAt_eq_ld, View.ld_unit_zero (S := S10000x128) roff0, View.ld_unit_zero (S := S1x1) roff0]

set_option maxHeartbeats 1000000 in
/-- Point 9: on whole memrefs, the two operand blocks at `x0`, `x1`, the result's at anything and the scratch word at `a`,
    the body runs to the continuation with the operands untouched and both the scratch and the result's buffer at `a`
    plus the block's sum of squares. -/
theorem reduce_body_C (c : Dev nD) (E : Set ℕ) (i : grid1.Coords) (arg1 : Memref sig .tc .vmem S10000x128 .f32) (harg1 : arg1.IsWhole)
    (arg2 : Memref sig .tc .vmem S10000x128 .f32) (harg2 : arg2.IsWhole) (arg3 : Memref sig .tc .vmem S1x1 .f32) (harg3 : arg3.IsWhole)
    (arg4 : Memref sig .tc .vmem S1x1 .f32) (harg4 : arg4.IsWhole) (hc1 : ¬rcond1 i) (hc2 : rcond2 i)
    (x0 x1 : Vec F S10000x128 .f32) (a : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare a
        ∗ (iprop(owns (c : Thread nD τ) arg1 fullShare x0 ∗ owns (c : Thread nD τ) arg2 fullShare x1 ∗ owns (c : Thread nD τ) arg3 fullShare (k1_pay2 x0 x1 a)
            ∗ owns (c : Thread nD τ) arg4 fullShare (k1_pay2 x0 x1 a)) -∗ K ⟨⟩))
      ⊢ wp frame (wpE (defs₀ (F := F)) Variants.none c none) E (cc1__reduce_kernel i arg1 harg1 arg2 harg2 arg3 harg3 arg4 harg4) K := by
  simp only [cc1__reduce_kernel_eq_skeleton]; unfold cc1__reduce_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (rcover _ _), View.canon_unit_zero roff0]
    simp only [View.readCov_unit_zero (S := S1x1) _ roff0, View.readAt_eq_ld, View.ld_unit_zero (S := S10000x128) roff0, View.ld_unit_zero (S := S1x1) roff0]
  iexists _; isplitr
  swap; · iexact H3
  ipureintro
  sl_unfold_run_names
  rw [View.read_writes_eq_canon _ _ _ (rcover _ _), View.canon_unit_zero roff0]
  simp only [View.readAt_eq_ld, View.ld_unit_zero (S := S10000x128) roff0, View.ld_unit_zero (S := S1x1) roff0]

variable (V : (c : Dev nD) → (b : Ref sig .tc) → Buf (Elt F) ((c : Thread nD τ).loc b))

/-! ## The blocks the body reads and the word it accumulates -/

/-- Window `w`'s block at point `t` of the array the region finds: rows 10000·t … 10000·t + 9999 of the gathered
    rows (w = 0) and of the feature rows (w = 1). -/
def rblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch word after point `n`: the first point starts from the zero word, each later one from what the point
    before left, and adds its block's sum of squares. -/
def accAt (c : Dev nD) : (n : ℕ) → n < cfg1.N → Vec F S1x1 .f32
  | 0, h => k1_pay2 (rblk V c 0 ⟨0, h⟩) (rblk V c 1 ⟨0, h⟩) (k1_pay1 (F := F))
  | n + 1, h => k1_pay2 (rblk V c 0 ⟨n + 1, h⟩) (rblk V c 1 ⟨n + 1, h⟩) (accAt c n (Nat.lt_of_succ_lt h))

theorem accAt_zero (c : Dev nD) (h : 0 < cfg1.N) :
    accAt V c 0 h = k1_pay2 (rblk V c 0 ⟨0, h⟩) (rblk V c 1 ⟨0, h⟩) (k1_pay1 (F := F)) := rfl
theorem accAt_succ (c : Dev nD) (n : ℕ) (h : n + 1 < cfg1.N) :
    accAt V c (n + 1) h = k1_pay2 (rblk V c 0 ⟨n + 1, h⟩) (rblk V c 1 ⟨n + 1, h⟩) (accAt V c n (Nat.lt_of_succ_lt h)) := rfl

/-- The word after the first point, stated at the point. -/
theorem accAt_first (c : Dev nD) (t : Fin cfg1.N) (h0 : t.val = 0) :
    accAt V c t.val t.isLt = k1_pay2 (rblk V c 0 t) (rblk V c 1 t) (k1_pay1 (F := F)) := by
  obtain ⟨n, hn⟩ := t
  cases n with
  | zero => rfl
  | succ n => exact absurd h0 (Nat.succ_ne_zero n)

/-- The word after a later point, stated at the point: the point's sum of squares added to the word the point before left. -/
theorem accAt_later (c : Dev nD) (t : Fin cfg1.N) (h0 : t.val ≠ 0) :
    accAt V c t.val t.isLt
      = k1_pay2 (rblk V c 0 t) (rblk V c 1 t) (accAt V c (t.val - 1) (Nat.lt_of_le_of_lt (Nat.sub_le _ _) t.isLt)) := by
  obtain ⟨n, hn⟩ := t
  cases n with
  | zero => exact absurd rfl h0
  | succ n => rfl

/-! ## The invariant between points -/

/-- The scratch word as a memref: the whole scoped [1, 1] buffer the kernel keeps between points. -/
abbrev scM : Memref sig .tc .vmem S1x1 .f32 := Memref.whole cc1_scratch0

/-- A whole buffer of the core at some contents. -/
abbrev anyAt (c : Dev nD) (b : Ref sig .tc) : sProp 𝕄 :=
  iprop(∃ f : Buf (Elt F) ((c : Thread nD τ).loc b), ((c : Thread nD τ).loc b) ↦{fullShare} f)

/-- The invariant's shape, with what it says of the scratch word left open (`X`): the four staging buffers of the first
    region at anything, `X`, and the generator register at some state. -/
def PhiRW (c : Dev nD) (X : sProp 𝕄) : sProp 𝕄 :=
  iprop(iprop(anyAt (F := F) c cc0_stg0_0 ∗ anyAt (F := F) c cc0_stg0_1 ∗ anyAt (F := F) c cc0_stg1_0 ∗ anyAt (F := F) c cc0_stg1_1 ∗ X)
    ∗ (∃ r, prngReg c r))

/-- The class's invariant is that shape with the scratch word owned at some contents. -/
theorem PhiA1_eq (c : Dev nD) :
    (Pipeline.ΦA spec1 c : sProp 𝕄) = PhiRW (F := F) c iprop(∃ d, owns (c : Thread nD τ) scM fullShare d) := by
  unfold Pipeline.ΦA PhiRW; rw [scopedRest1_eq]; simp only [scM, owns_whole]; try rfl

/-- What the invariant says of the scratch word may be weakened. -/
theorem PhiRW_mono (c : Dev nD) {X Y : sProp 𝕄} (h : X ⊢ Y) : PhiRW (F := F) c X ⊢ PhiRW (F := F) c Y := by
  unfold PhiRW
  iintro ⟨⟨R0, R1, R2, R3, HX⟩, Hg⟩
  isplitr [Hg]
  · isplitl [R0]; · iexact R0
    isplitl [R1]; · iexact R1
    isplitl [R2]; · iexact R2
    isplitl [R3]; · iexact R3
    iapply h; iexact HX
  iexact Hg

/-- The invariant before position `n`: before the first point the class's (the scratch word at anything); afterwards
    the scratch word at what the point before left. -/
def PhiR (c : Dev nD) : (n : ℕ) → n ≤ cfg1.N → sProp 𝕄
  | 0, _ => Pipeline.ΦA spec1 c
  | n + 1, hn => PhiRW (F := F) c (owns (c : Thread nD τ) scM fullShare (accAt V c n hn))

theorem PhiR_zero (c : Dev nD) (n : ℕ) (h : n ≤ cfg1.N) (hz : n = 0) : PhiR V c n h = Pipeline.ΦA spec1 c := by
  subst hz; rfl

theorem PhiR_succ (c : Dev nD) (n : ℕ) (hn : n < cfg1.N) :
    PhiR V c (n + 1) hn = PhiRW (F := F) c (owns (c : Thread nD τ) scM fullShare (accAt V c n hn)) := rfl

theorem PhiR_pos (c : Dev nD) (n : ℕ) (h : n ≤ cfg1.N) (hz : n ≠ 0) :
    PhiR V c n h = PhiRW (F := F) c (owns (c : Thread nD τ) scM fullShare (accAt V c (n - 1) (by omega))) := by
  cases n with
  | zero => exact absurd rfl hz
  | succ n => rfl

/-! ## The proof data -/

/-- Pipeline 1's proof data: the arrays as found; after the body the two operand buffers still at their blocks and the
    result's at the accumulated word; between points the invariant above; nothing owed. -/
def datR (c : Dev nD) : Dat τ (Elt F) Unit ℕ (UR sig nD τ) ℕ cfg1 c where
  A w := V c (Pipeline.arrRef spec1 w)
  after w t := match w with
    | ⟨0, _⟩ => rblk V c 0 t
    | ⟨1, _⟩ => rblk V c 1 t
    | ⟨2, _⟩ => accAt V c t.val t.isLt
  Φ t := PhiR V c t.val (Nat.le_of_lt_succ t.isLt)
  q _ := fullShare
  owed _ := 0

theorem datR_A (c : Dev nD) (w : Fin cfg1.W) : (datR V c).A w = V c (Pipeline.arrRef spec1 w) := by dsimp only [datR]
theorem datR_after0 (c : Dev nD) (t : Fin cfg1.N) : (datR V c).after 0 t = rblk V c 0 t := by dsimp only [datR]
theorem datR_after1 (c : Dev nD) (t : Fin cfg1.N) : (datR V c).after 1 t = rblk V c 1 t := by dsimp only [datR]
theorem datR_after2 (c : Dev nD) (t : Fin cfg1.N) : (datR V c).after 2 t = accAt V c t.val t.isLt := by dsimp only [datR]
theorem datR_owed (c : Dev nD) (t : Fin (cfg1.N + 1)) : (datR V c).owed t = 0 := rfl
theorem datR_q (c : Dev nD) (w : Fin cfg1.W) : (datR V c).q w = fullShare := rfl

/-- The invariant at a point's start, restated at the point's position. -/
theorem datR_Phi_castSucc (c : Dev nD) (t : Fin cfg1.N) :
    (datR V c).Φ t.castSucc = PhiR V c t.val (Nat.le_of_lt t.isLt) := by
  dsimp only [datR]; simp only [Fin.coe_castSucc]

/-- Each operand's current staging buffer holds its block at every point: the window is fetched at each point, whole,
    and the body leaves it in place. -/
theorem datR_before0 (c : Dev nD) (t : Fin cfg1.N) (d) : (datR V c).before 0 t d = rblk V c 0 t :=
  ((datR V c).before_in_eq_fetched 0 rfl (fun _ => rfl) (fun _ _ _ => rfl)
    (fun t => by rw [datR_after0]; unfold Dat.blockOf rblk; rw [datR_A]; try rfl) t d).trans
    (by unfold Dat.fetched Dat.blockOf rblk; rw [datR_A]; try rfl)
theorem datR_before1 (c : Dev nD) (t : Fin cfg1.N) (d) : (datR V c).before 1 t d = rblk V c 1 t :=
  ((datR V c).before_in_eq_fetched 1 rfl (fun _ => rfl) (fun _ _ _ => rfl)
    (fun t => by rw [datR_after1]; unfold Dat.blockOf rblk; rw [datR_A]; try rfl) t d).trans
    (by unfold Dat.fetched Dat.blockOf rblk; rw [datR_A]; try rfl)

/-! ## The conditions, the idle points and the write-back, decided over the grid -/

/-- The first condition holds at point 0 only. -/
theorem hrcond1 : ∀ t : Fin cfg1.N, rcond1 (grid1.coords t) ↔ t.val = 0 :=
  (by decide +kernel : ∀ t : Fin grid1.N, rcond1 (grid1.coords t) ↔ t.val = 0)
/-- The second holds at point 9 only. -/
theorem hrcond2 : ∀ t : Fin cfg1.N, rcond2 (grid1.coords t) ↔ t.val = 9 :=
  (by decide +kernel : ∀ t : Fin grid1.N, rcond2 (grid1.coords t) ↔ t.val = 9)

/-- The two operand windows are never idle. -/
theorem rlive0 : ∀ t : Fin cfg1.N, cfg1.idle 0 (grid1.coords t) = false := by decide +kernel
theorem rlive1 : ∀ t : Fin cfg1.N, cfg1.idle 1 (grid1.coords t) = false := by decide +kernel
/-- Away from the last point the result's window is idle (the body stores nothing into it) and is not written back. -/
theorem ridle2 : ∀ t : Fin cfg1.N, ¬rcond2 (grid1.coords t) → cfg1.idle 2 (grid1.coords t) = true := by decide +kernel
theorem rnoflush2 : ∀ t : Fin cfg1.N, ¬rcond2 (grid1.coords t) → (cfg1.win 2).flush t = false := by decide +kernel
/-- At the last point it is live. -/
theorem rlive2 : ∀ t : Fin cfg1.N, rcond2 (grid1.coords t) → cfg1.idle 2 (grid1.coords t) = false := by decide +kernel

/-! ## The body at a point, between the invariant's two copies -/

set_option maxHeartbeats 1000000 in
/-- The body at any point. The operand buffers hold their blocks; the point's position decides the case. At point 0
    the invariant hands over the scratch word at anything and takes it back at the first block's sum of squares; at a
    later point it hands it over at what the point before left and takes it back with this block's sum added. Away from
    point 9 the result's buffer is handed back as found; at point 9 it is left at the accumulated word. -/
theorem reduce_point (c : Dev nD) (t : Fin cfg1.N) :
    iprop((datR V c).Φ t.castSucc ∗ (datR V c).owesAt () t.castSucc
        ∗ (∃ d, owns (c : Thread nD τ) (st1_0 t) fullShare ((datR V c).before 0 t d))
        ∗ (∃ d, owns (c : Thread nD τ) (st1_1 t) fullShare ((datR V c).before 1 t d))
        ∗ (∃ d, owns (c : Thread nD τ) (st1_2 t) fullShare ((datR V c).before 2 t d)))
      ⊢ wp frame (wpE (defs₀ (F := F)) Variants.none c none) Set.univ (bodyAt1 t) (fun _ =>
        iprop((datR V c).Φ t.succ ∗ (datR V c).owesAt () t.succ
          ∗ (datR V c).leavesExact 0 t ∗ (datR V c).leavesExact 1 t ∗ (datR V c).leavesExact 2 t)) := by
  unfold bodyAt1
  simp only [datR_before0, datR_before1]
  rw [show (datR V c).owesAt () t.succ = (datR V c).owesAt () t.castSucc from rfl,
    show (datR V c).Φ t.succ = PhiR V c (t.val + 1) t.isLt from rfl, PhiR_succ, datR_Phi_castSucc,
    show (datR V c).leavesExact 0 t = owns (c : Thread nD τ) (st1_0 t) fullShare ((datR V c).after 0 t) from by
      unfold Dat.leavesExact; rw [rlive0 t],
    show (datR V c).leavesExact 1 t = owns (c : Thread nD τ) (st1_1 t) fullShare ((datR V c).after 1 t) from by
      unfold Dat.leavesExact; rw [rlive1 t],
    datR_after0, datR_after1]
  by_cases h0 : t.val = 0
  · -- point 0: reset, accumulate, the result's window idle
    have hc1 : rcond1 (grid1.coords t) := (hrcond1 t).mpr h0
    have hc2 : ¬rcond2 (grid1.coords t) := fun h => by have := (hrcond2 t).mp h; omega
    rw [Dat.leavesExact_idle (datR V c) 2 t (ridle2 t hc2) (rnoflush2 t hc2), PhiR_zero V c _ _ h0, PhiA1_eq,
      accAt_first V c t h0]
    unfold PhiRW
    iintro ⟨⟨⟨R0, R1, R2, R3, HS⟩, Hg⟩, Ho, ⟨%d0, H0⟩, ⟨%d1, H1⟩, ⟨%d2, H2⟩⟩
    iapply (reduce_body_A c Set.univ _ _ _ _ _ _ _ _ _ hc1 hc2 (rblk V c 0 t) (rblk V c 1 t) _ _)
    isplitl [H0]; · iexact H0
    isplitl [H1]; · iexact H1
    isplitl [H2]; · iexact H2
    isplitl [HS]; · iexact HS
    iintro ⟨H0, H1, H2, HS⟩
    isplitl [R0 R1 R2 R3 HS Hg]
    · isplitr [Hg]
      · isplitl [R0]; · iexact R0
        isplitl [R1]; · iexact R1
        isplitl [R2]; · iexact R2
        isplitl [R3]; · iexact R3
        iexact HS
      iexact Hg
    isplitl [Ho]; · iexact Ho
    isplitl [H0]; · iexact H0
    isplitl [H1]; · iexact H1
    iexists _; iexact H2
  · have hc1 : ¬rcond1 (grid1.coords t) := fun h => h0 ((hrcond1 t).mp h)
    rw [PhiR_pos V c _ _ h0, accAt_later V c t h0]
    unfold PhiRW
    by_cases h9 : t.val = 9
    · -- point 9: accumulate, copy the word to the result's buffer
      have hc2 : rcond2 (grid1.coords t) := (hrcond2 t).mpr h9
      rw [show (datR V c).leavesExact 2 t = owns (c : Thread nD τ) (st1_2 t) fullShare ((datR V c).after 2 t) from by
        unfold Dat.leavesExact; rw [rlive2 t hc2], datR_after2, accAt_later V c t h0]
      iintro ⟨⟨⟨R0, R1, R2, R3, HS⟩, Hg⟩, Ho, ⟨%d0, H0⟩, ⟨%d1, H1⟩, ⟨%d2, H2⟩⟩
      iapply (reduce_body_C c Set.univ _ _ _ _ _ _ _ _ _ hc1 hc2 (rblk V c 0 t) (rblk V c 1 t) _ _)
      isplitl [H0]; · iexact H0
      isplitl [H1]; · iexact H1
      isplitl [H2]; · iexists _; iexact H2
      isplitl [HS]; · iexact HS
      iintro ⟨H0, H1, H2, HS⟩
      isplitl [R0 R1 R2 R3 HS Hg]
      · isplitr [Hg]
        · isplitl [R0]; · iexact R0
          isplitl [R1]; · iexact R1
          isplitl [R2]; · iexact R2
          isplitl [R3]; · iexact R3
          iexact HS
        iexact Hg
      isplitl [Ho]; · iexact Ho
      isplitl [H0]; · iexact H0
      isplitl [H1]; · iexact H1
      iexact H2
    · -- points 1 … 8: accumulate, the result's window idle
      have hc2 : ¬rcond2 (grid1.coords t) := fun h => h9 ((hrcond2 t).mp h)
      rw [Dat.leavesExact_idle (datR V c) 2 t (ridle2 t hc2) (rnoflush2 t hc2)]
      iintro ⟨⟨⟨R0, R1, R2, R3, HS⟩, Hg⟩, Ho, ⟨%d0, H0⟩, ⟨%d1, H1⟩, ⟨%d2, H2⟩⟩
      iapply (reduce_body_B c Set.univ _ _ _ _ _ _ _ _ _ hc1 hc2 (rblk V c 0 t) (rblk V c 1 t) _ _ _)
      isplitl [H0]; · iexact H0
      isplitl [H1]; · iexact H1
      isplitl [H2]; · iexact H2
      isplitl [HS]; · iexact HS
      iintro ⟨H0, H1, H2, HS⟩
      isplitl [R0 R1 R2 R3 HS Hg]
      · isplitr [Hg]
        · isplitl [R0]; · iexact R0
          isplitl [R1]; · iexact R1
          isplitl [R2]; · iexact R2
          isplitl [R3]; · iexact R3
          iexact HS
        iexact Hg
      isplitl [Ho]; · iexact Ho
      isplitl [H0]; · iexact H0
      isplitl [H1]; · iexact H1
      iexists _; iexact H2

/-! ## The body obligation and the invariant's two ends -/

theorem reduce_obligation (c : Dev nD) : BodyObligation (datR (F := F) V c) (defs₀ (F := F)) Variants.none () Set.univ := fun t => by
  rw [bigSep_W1, bigSep_W1]
  exact reduce_point V c t

/-- What the launch hands the region is the invariant before the first point. -/
theorem datR_in (c : Dev nD) : (Pipeline.ΦA spec1 c : sProp 𝕄) ⊢ (datR V c).Φ 0 := by
  rw [show (datR V c).Φ 0 = PhiR V c 0 (Nat.zero_le _) from rfl, PhiR_zero V c 0 _ rfl]
  try exact Idealize.SL.BI.Entails.refl _

/-- After the last point the invariant gives the class's back: what the scratch word holds is forgotten. -/
theorem datR_out (c : Dev nD) : (datR V c).Φ (Fin.last cfg1.N) ⊢ (Pipeline.ΦA spec1 c : sProp 𝕄) := by
  rw [show (datR V c).Φ (Fin.last cfg1.N) = PhiR V c (Fin.last cfg1.N).val (Nat.le_of_lt_succ (Fin.last cfg1.N).isLt) from rfl,
    PhiR_pos V c _ _ (by rw [Fin.val_last]; have : cfg1.N = 10 := N_1; omega), PhiA1_eq]
  exact PhiRW_mono c (by iintro H; iexists _; iexact H)

end Cert.KernelIdeal.Hand

end
-- ==== Proof.KI.Run.lean ====
/-
  The whole run of the kernel's program: reshape the volume to a [128, 884736] table, transpose it (first region),
  compute each point's flat row index and select the rows (host lines), sum the squared differences (second region),
  reshape the [1, 1] result to a scalar. Between two items the core's unscoped buffers are held at named contents
  `WJ`: a host stretch applies its operations to the contents before it; a region replaces its windows' arrays by
  what its write-backs leave. The run ends with every unscoped buffer at `W6`; the arguments are among them and no item
  changes them.
-/
import proofs.«407288_j86517821210741_1_alg».proof.Proof.KI.Transpose
import proofs.«407288_j86517821210741_1_alg».proof.Proof.KI.Reduce
import proofs.«407288_j86517821210741_1_alg».proof.Proof.Gen.KernelIdeal.Regions
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the two reshapes: the first region's entry. -/
abbrev W1 : Dev nD → Valuation τ sig (Elt F) := fun c => StableHlo.after hostOps0 (W0 m c)
abbrev entry0 : (c : Dev nD) → (b : Ref sig .tc) → Buf (Elt F) ((c : Thread nD τ).loc b) := fun c b => W1 m c b
/-- After the first region: its arrays at what the write-backs leave, everything else as entered. -/
def W2 (c : Dev nD) : Valuation τ sig (Elt F) :=
  Pipeline.withArrays spec0 c (W1 m c) fun w => (datT (entry0 m) c).arrAt w cfg0.N
theorem W2_arr (c : Dev nD) (w : Fin cfg0.W) :
    W2 m c (Proc.devRef .tc (Pipeline.arrRef spec0 w)) = (datT (entry0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev exit0 : (c : Dev nD) → (b : Ref sig .tc) → Buf (Elt F) ((c : Thread nD τ).loc b) := fun c b => W2 m c b
theorem exit0_arr (c : Dev nD) (w : Fin cfg0.W) : (datT (entry0 m) c).arrAt w cfg0.N = exit0 m c (Pipeline.arrRef spec0 w) :=
  (W2_arr m c w).symm
theorem exit0_rest (c : Dev nD) : ∀ b, b ∉ Finset.univ.image (Pipeline.arrRef spec0) → exit0 m c b = entry0 m c b :=
  fun b hb => W2_of_ne m c b fun w e => hb (Finset.mem_image.mpr ⟨w, Finset.mem_univ _, e⟩)

/-- After the index arithmetic, then after the row selection: the second region's entry. -/
abbrev W3 : Dev nD → Valuation τ sig (Elt F) := fun c => StableHlo.after hostOps1 (W2 m c)
abbrev W4 : Dev nD → Valuation τ sig (Elt F) := fun c => StableHlo.after hostOps1_1 (W3 m c)
abbrev entry1 : (c : Dev nD) → (b : Ref sig .tc) → Buf (Elt F) ((c : Thread nD τ).loc b) := fun c b => W4 m c b
/-- After the second region. -/
def W5 (c : Dev nD) : Valuation τ sig (Elt F) :=
  Pipeline.withArrays spec1 c (W4 m c) fun w => (datR (entry1 m) c).arrAt w cfg1.N
theorem W5_arr (c : Dev nD) (w : Fin cfg1.W) :
    W5 m c (Proc.devRef .tc (Pipeline.arrRef spec1 w)) = (datR (entry1 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev exit1 : (c : Dev nD) → (b : Ref sig .tc) → Buf (Elt F) ((c : Thread nD τ).loc b) := fun c b => W5 m c b
theorem exit1_arr (c : Dev nD) (w : Fin cfg1.W) : (datR (entry1 m) c).arrAt w cfg1.N = exit1 m c (Pipeline.arrRef spec1 w) :=
  (W5_arr m c w).symm
theorem exit1_rest (c : Dev nD) : ∀ b, b ∉ Finset.univ.image (Pipeline.arrRef spec1) → exit1 m c b = entry1 m c b :=
  fun b hb => W5_of_ne m c b fun w e => hb (Finset.mem_image.mpr ⟨w, Finset.mem_univ _, e⟩)
/-- After the last reshape: the end. -/
abbrev W6 : Dev nD → Valuation τ sig (Elt F) := fun c => StableHlo.after hostOps2 (W5 m c)

/-! ## No item changes an argument -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ hostOps2_writes (r := main_arg0) (by decide)
    _ = W4 m c (Proc.devRef .tc main_arg0) := W5_of_ne m c main_arg0 (by decide)
    _ = W3 m c (Proc.devRef .tc main_arg0) := StableHlo.after_of_writes_sub hostOps1_1 _ hostOps1_1_writes (r := main_arg0) (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps2 _ hostOps2_writes (r := main_arg1) (by decide)
    _ = W4 m c (Proc.devRef .tc main_arg1) := W5_of_ne m c main_arg1 (by decide)
    _ = W3 m c (Proc.devRef .tc main_arg1) := StableHlo.after_of_writes_sub hostOps1_1 _ hostOps1_1_writes (r := main_arg1) (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

/-- The feature rows are the second region's window 1: an input window's array is never written. -/
theorem W5_main_arg2 (c : Dev nD) : W5 m c (Proc.devRef .tc main_arg2) = W4 m c (Proc.devRef .tc main_arg2) :=
  (W5_arr m c 1).trans (((datR (entry1 m) c).arrAt_in 1 rfl _).trans (datR_A (entry1 m) c 1))

theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps2 _ hostOps2_writes (r := main_arg2) (by decide)
    _ = W4 m c (Proc.devRef .tc main_arg2) := W5_main_arg2 m c
    _ = W3 m c (Proc.devRef .tc main_arg2) := StableHlo.after_of_writes_sub hostOps1_1 _ hostOps1_1_writes (r := main_arg2) (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

/-! ## The proof data of both pipelines and what rides beside the buffers -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => datT (entry0 m) c
  | ⟨1, _⟩ => fun c => datR (entry1 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The transpose region: entered with the buffers at `W1`, left with them at `W2`. -/
def regT : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (transpose_obligation (entry0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The reduction region: entered with the buffers at `W4`, left with them at `W5`. Its invariant takes the class's
    scoped rest and generator register at the first point and gives them back after the last. -/
def regR : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (reduce_obligation (entry1 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec1 c : sProp 𝕄) ⊢ (pdats m 1 c).Φ 0 from datR_in (entry1 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from datR_out (entry1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The program's six items in order. -/
abbrev segs : List (Pipeline.Seg (pcfgs (F := F)) adm (pdats m) () defs₀ 𝒱₀ L lv) :=
  [ .host (hseg hostOps0 hostOps0_sub hostOps0_fresh (W0 m)),
    .region (regT m),
    .host (hseg hostOps1 hostOps1_sub hostOps1_fresh (W2 m)),
    .host (hseg hostOps1_1 hostOps1_1_sub hostOps1_1_fresh (W3 m)),
    .region (regR m),
    .host (hseg hostOps2 hostOps2_sub hostOps2_fresh (W5 m)) ]

set_option backward.isDefEq.respectTransparency.types false in
/-- Every weakly fair execution of the program from memory `m` with zero counters terminates, nothing faulting, with
    every unscoped buffer of every core at `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.KernelIdeal.Hand

end
-- ==== Proof.Spec.lean ====
/-
  The mathematics both programs compute, stated once over plain arrays of extended reals and words.

  A point n has three integer coordinates (p₀, p₁, p₂). When each lies in 0 … 95 it names the voxel (p₀, p₁, p₂) of a
  [128, 96, 96, 96] volume, and both programs read, for every channel ch, the volume's entry at (ch, p₀, p₁, p₂): one
  through the flat row index 9216·p₀ + 96·p₁ + p₂ of the transposed [884736, 128] table, the other through the three
  axes directly. The result of both is the sum over all points n and channels ch of

      (volume[ch, p₀, p₁, p₂] − feature[n, ch] · (1/200))²

  on the extended reals; sums of extended reals may be regrouped and reordered freely, so no finiteness is needed.
-/
import Idealize.ShloMosaic.PureOps.Ideal
import Idealize.ShloMosaic.Lib.ValueIdx

noncomputable section

open scoped BigOperators

namespace Cert.Spec

open Idealize.ShloMosaic Idealize.ShloMosaic.ValueIdx

abbrev SImg : Shape := ⟨5, ![1, 128, 96, 96, 96]⟩
abbrev SPts : Shape := ⟨2, ![100000, 3]⟩
abbrev SFeat : Shape := ⟨2, ![100000, 128]⟩

/-- Every coordinate of every point is a position on an axis of extent 96 (read as a signed word). -/
def InRange (pts : IVec SPts 32) : Prop := ∀ (n : Fin 100000) (k : Fin 3), 0 ≤ (pts (ix2 n k)).toInt ∧ (pts (ix2 n k)).toInt < 96

/-- Point `n`'s `k`-th coordinate as a position on an axis of extent 96 (the word itself when the point is in range). -/
def coord (pts : IVec SPts 32) (n : Fin 100000) (k : Fin 3) : Fin 96 :=
  ⟨(pts (ix2 n k)).toNat % 96, Nat.mod_lt _ (by decide)⟩

theorem coord_val {pts : IVec SPts 32} (h : InRange pts) (n : Fin 100000) (k : Fin 3) :
    ((coord pts n k).val : Int) = (pts (ix2 n k)).toInt := by
  obtain ⟨h0, h1⟩ := h n k
  have hnat : (pts (ix2 n k)).toNat < 96 := by
    have := BitVec.toInt_eq_toNat_cond (pts (ix2 n k))
    split at this <;> omega
  have : (pts (ix2 n k)).toInt = ((pts (ix2 n k)).toNat : Int) := by
    have := BitVec.toInt_eq_toNat_cond (pts (ix2 n k))
    split at this <;> omega
  simp only [coord, Nat.mod_eq_of_lt hnat, this]

theorem coord_toNat {pts : IVec SPts 32} (h : InRange pts) (n : Fin 100000) (k : Fin 3) :
    (pts (ix2 n k)).toNat = (coord pts n k).val := by
  have := coord_val h n k
  obtain ⟨h0, h1⟩ := h n k
  have hc := BitVec.toInt_eq_toNat_cond (pts (ix2 n k))
  split at hc <;> omega

/-- The row of the transposed [884736, 128] table that point `n` names: 9216·p₀ + 96·p₁ + p₂. -/
def vox (pts : IVec SPts 32) (n : Fin 100000) : Fin 884736 :=
  ⟨9216 * (coord pts n 0).val + 96 * (coord pts n 1).val + (coord pts n 2).val, by
    have := (coord pts n 0).isLt; have := (coord pts n 1).isLt; have := (coord pts n 2).isLt; omega⟩

/-- The volume's entry that point `n` and channel `ch` read. -/
def sample (img : FVec Ideal SImg .f32) (pts : IVec SPts 32) (n : Fin 100000) (ch : Fin 128) : EReal :=
  img (ix5 (0 : Fin 1) ch (coord pts n 0) (coord pts n 1) (coord pts n 2))

/-- One squared difference. -/
def term (img : FVec Ideal SImg .f32) (pts : IVec SPts 32) (feat : FVec Ideal SFeat .f32) (n : Fin 100000) (ch : Fin 128) : EReal :=
  (sample img pts n ch - feat (ix2 n ch) * ((1 / 200 : ℝ) : EReal)) * (sample img pts n ch - feat (ix2 n ch) * ((1 / 200 : ℝ) : EReal))

/-- The result of both programs: all squared differences summed, points outermost. -/
def total (img : FVec Ideal SImg .f32) (pts : IVec SPts 32) (feat : FVec Ideal SFeat .f32) : EReal :=
  ∑ n : Fin 100000, ∑ ch : Fin 128, term img pts feat n ch

end Cert.Spec

end
-- ==== Proof.KI.TransposeValue.lean ====
/-
  Two facts around the first kernel region, each read at an index.

  The region turns the [128, 884736] operand into its [884736, 128] transpose, 8192 columns at a grid point: point t
  writes the transpose of column block t as row block t of the result, and the 108 row blocks tile the result. So after
  the last write-back the result's entry (s, ch) is the operand's entry (ch, s).

  The operand itself is the [1, 128, 96, 96, 96] volume reshaped on the host to [128, 96, 96, 96] and then to
  [128, 884736]; a reshape keeps row-major positions, so the operand's entry (ch, 9216·d + 96·h + w) is the volume's
  entry (0, ch, d, h, w).
-/
import proofs.«407288_j86517821210741_1_alg».proof.Proof.Gen.KernelIdeal.Launch
import proofs.«407288_j86517821210741_1_alg».proof.Proof.Gen.KernelIdeal.Skeleton
import proofs.«407288_j86517821210741_1_alg».proof.Proof.Gen.KernelIdeal.Points
import proofs.«407288_j86517821210741_1_alg».proof.Proof.Spec
import proofs.«407288_j86517821210741_1_alg».proof.Proof.KI.Transpose
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.ValueIdx
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (V : (c : Dev nD) → (b : Ref sig .tc) → Buf (Elt F) ((c : Thread nD τ).loc b))

/-! ## The whole transpose

Point t of the 108 reads columns 8192·t … 8192·t + 8191 of the [128, 884736] operand and writes their transpose as rows
8192·t … 8192·t + 8191 of the [884736, 128] result. The row blocks tile the result, so after the last write-back the
result is the operand transposed. -/

theorem zeros2 : (![0, 0] : Fin 2 → Nat) = fun _ => 0 := funext fun a => by fin_cases a <;> rfl

/-- The operand transposed: entry (s, ch) is the operand's entry (ch, s). -/
def transposedOf (c : Dev nD) : S884736x128.Idx → Elt F .f32 :=
  fun i => (V c main_v1 : S128x884736.Idx → Elt F .f32) (ValueIdx.ix2 (n0 := 128) (n1 := 884736) (i 1) (i 0))

/-- What the body stores, at an index: the loaded block at the index with the two coordinates exchanged (the identity
    shape cast, then the transpose of the two axes). -/
theorem stored_apply (x : Vec F S128x8192 .f32) (y : S8192x128.Idx) (k : S128x8192.Idx)
    (h0 : (k 0).val = (y 1).val) (h1 : (k 1).val = (y 0).val) : k0_pay1 x y = x k := by
  unfold k0_pay1
  refine (transpose_apply [1, 0] _ _ y k fun b => ?_).trans (congrFun (shapeCast_self x _) k)
  match b with
  | ⟨0, _⟩ => exact h1
  | ⟨1, _⟩ => exact h0

/-- The windows' index maps over the grid: the operand's block at point t is column block t, the result's row block t. -/
theorem block_index : ∀ t : Fin cfg0.N, win0_0.index t (0 : Fin 2) = 0 ∧ win0_0.index t (1 : Fin 2) = t.val
    ∧ win0_1.index t (0 : Fin 2) = t.val ∧ win0_1.index t (1 : Fin 2) = 0 :=
  (by decide +kernel : ∀ t : Fin grid0.N, win0_0.index t (0 : Fin 2) = 0 ∧ win0_0.index t (1 : Fin 2) = t.val
    ∧ win0_1.index t (0 : Fin 2) = t.val ∧ win0_1.index t (1 : Fin 2) = 0)

/-- What point t writes back is row block t of the transposed operand: entry (r, ch) of the stored block is entry
    (ch, r) of column block t, which is the operand's entry (ch, 8192·t + r). -/
theorem written_eq (c : Dev nD) (t : Fin cfg0.N) :
    (datT V c).flushed 1 t = ((cfg0.win 1).blk t).view.read (Elt F) (transposedOf V c) := by
  show (cfg0.win 1).cut (grid0.coords t) ((datT V c).after 1 t) = _
  rw [datT_after1]
  unfold tstored
  rw [View.canon_unit_zero zeros2, View.ld_unit_zero (S := S128x8192) zeros2]
  obtain ⟨e0, e1, e2, e3⟩ := block_index t
  funext j
  refine (stored_apply _ _ (ValueIdx.ix2 (n0 := 128) (n1 := 8192) (j 1) (j 0)) rfl rfl).trans ?_
  show (V c main_v1 : S128x884736.Idx → Elt F .f32) (((cfg0.win 0).blk t).view.emb (ValueIdx.ix2 (n0 := 128) (n1 := 8192) (j 1) (j 0)))
    = (V c main_v1 : S128x884736.Idx → Elt F .f32) (ValueIdx.ix2 (n0 := 128) (n1 := 884736) ((((cfg0.win 1).blk t).view.emb j) 1) ((((cfg0.win 1).blk t).view.emb j) 0))
  congr 1
  funext a
  apply Fin.ext
  match a with
  | ⟨0, _⟩ =>
    show win0_0.index t (0 : Fin 2) * 128 + 1 * (j 1).val = win0_1.index t (1 : Fin 2) * 128 + 1 * (j 1).val
    rw [e0, e3]
  | ⟨1, _⟩ =>
    show win0_0.index t (1 : Fin 2) * 8192 + 1 * (j 0).val = win0_1.index t (0 : Fin 2) * 8192 + 1 * (j 0).val
    rw [e1, e2]

/-- An index of the result is in point t's row block iff each coordinate is in the block's range on its axis. -/
theorem mem_rows (t : Fin cfg0.N) (i : S884736x128.Idx) :
    i ∈ ((cfg0.win 1).blk t).view.set ↔ ∀ a : Fin 2, win0_1.index t a * S8192x128.size a ≤ (i a).val
      ∧ (i a).val < win0_1.index t a * S8192x128.size a + S8192x128.size a := by
  show i ∈ ((View.whole main_v2).slice (win0_1.rect t)).set ↔ _
  rw [View.set_slice_whole, Rect.mem_set_unit]
  exact Iff.rfl

/-- Every index of the result is in a row block that is written back: row r is in block r / 8192, and 884736 = 108 · 8192. -/
theorem rows_cover (i : S884736x128.Idx) :
    ∃ t : Fin cfg0.N, (cfg0.win 1).flush t = true ∧ i ∈ ((cfg0.win 1).blk t).view.set := by
  have hi0 : (i 0).val < 884736 := (i 0).isLt
  have hi1 : (i 1).val < 128 := (i 1).isLt
  have hN : grid0.N = 108 := N_0
  obtain ⟨t, ht⟩ : ∃ t : Fin cfg0.N, t.val = (i 0).val / 8192 :=
    ⟨⟨(i 0).val / 8192, by show (i 0).val / 8192 < grid0.N; rw [hN]; omega⟩, rfl⟩
  obtain ⟨e0, e1, e2, e3⟩ := block_index t
  refine ⟨t, flush0_1 t, ?_⟩
  rw [mem_rows]
  intro a
  match a with
  | ⟨0, _⟩ =>
    show win0_1.index t (0 : Fin 2) * 8192 ≤ (i 0).val ∧ (i 0).val < win0_1.index t (0 : Fin 2) * 8192 + 8192
    rw [e2, ht]; omega
  | ⟨1, _⟩ =>
    show win0_1.index t (1 : Fin 2) * 128 ≤ (i 1).val ∧ (i 1).val < win0_1.index t (1 : Fin 2) * 128 + 128
    rw [e3]; omega

/-- After all 108 write-backs the result array is the operand transposed. -/
theorem transposed_eq (c : Dev nD) : (datT V c).arrAt 1 cfg0.N = transposedOf V c :=
  (datT V c).arrAt_eq_of_cover 1 (transposedOf V c) (fun t _ => written_eq V c t) rows_cover

/-- THE WHOLE TRANSPOSE, at an index: the result's entry (s, ch) is the operand's entry (ch, s). -/
theorem transposed_whole (c : Dev nD) (s : Fin 884736) (ch : Fin 128) :
    (datT V c).arrAt 1 cfg0.N (ValueIdx.ix2 s ch) = V c main_v1 (ValueIdx.ix2 ch s) := by
  rw [transposed_eq]
  rfl

/-! ## The volume as a [128, 884736] table

Before the region the host reshapes the [1, 128, 96, 96, 96] volume to [128, 96, 96, 96] and then to [128, 884736]: a
reshape keeps the row-major position, so the table's entry (ch, 9216·d + 96·h + w) is the volume's entry (0, ch, d, h, w). -/

/-- What the two reshapes leave in the table's buffer, from any starting contents: the starting volume, reshaped twice. -/
theorem after_hostOps0_v1_eq (W : Valuation τ sig (Elt F)) :
    (StableHlo.after hostOps0 W (Proc.devRef .tc main_v1) : S128x884736.Idx → Elt F .f32)
      = shapeCast S128x884736 (shapeCast S128x96x96x96 (W (Proc.devRef .tc main_arg0) : S1x128x96x96x96.Idx → Elt F .f32)
          shapeCasts_S1x128x96x96x96_S128x96x96x96) shapeCasts_S128x96x96x96_S128x884736 := by
  dsimp only [hostOps0]
  after_results
  rfl

/-- The table at (ch, 9216·d + 96·h + w) is the volume at (0, ch, d, h, w): both reshapes keep the row-major position,
    ((ch·96 + d)·96 + h)·96 + w = ch·884736 + (9216·d + 96·h + w). -/
theorem after_hostOps0_v1 (W : Valuation τ sig (Elt F)) (ch : Fin 128) (d h w : Fin 96) :
    (StableHlo.after hostOps0 W (Proc.devRef .tc main_v1) : S128x884736.Idx → Elt F .f32)
        (ValueIdx.ix2 ch ⟨9216 * d.val + 96 * h.val + w.val, by have := d.isLt; have := h.isLt; have := w.isLt; omega⟩)
      = (W (Proc.devRef .tc main_arg0) : S1x128x96x96x96.Idx → Elt F .f32) (ValueIdx.ix5 (0 : Fin 1) ch d h w) := by
  rw [after_hostOps0_v1_eq]
  refine (shapeCast_apply _ _ _ (ValueIdx.ix4 ch d h w) ?_).trans (shapeCast_apply _ _ _ (ValueIdx.ix5 (0 : Fin 1) ch d h w) ?_)
  · rw [Shape.rowMajor_val_four, Shape.rowMajor_val_two]
    show ((ch.val * 96 + d.val) * 96 + h.val) * 96 + w.val = ch.val * 884736 + (9216 * d.val + 96 * h.val + w.val)
    omega
  · rw [Shape.rowMajor_val_five, Shape.rowMajor_val_four]
    show ((((0 * 128 + ch.val) * 96 + d.val) * 96 + h.val) * 96 + w.val) = ((ch.val * 96 + d.val) * 96 + h.val) * 96 + w.val
    omega

end Cert.KernelIdeal.Hand

end
-- ==== Proof.KI.HostIndex.lean ====
/-
  The host lines between the two kernel regions, as two functions of what they read.

  The first stretch turns the points, an integer array [100000, 3], into one flat row index per point: the three
  coordinate columns are sliced off, each flattened to [100000], and combined as p₀ · 9216 + p₁ · 96 + p₂ in wrapping
  32-bit arithmetic. The second stretch reads the rows of the transposed [884736, 128] table at those indices: a
  negative index is first moved up by 884736; the index, as a [100000, 1] column, is tested for 0 ≤ index ≤ 884735; the
  rows are gathered at the column (the gather clamps each start index into the table); and a row whose index failed the
  test is replaced by a constant row. When every coordinate lies in 0 … 95 the flat index is the voxel's row number
  9216·p₀ + 96·p₁ + p₂ ≤ 884735, nothing wraps, the test passes, the clamp is the identity, and point n's row is the
  table's row at that voxel.
-/
import proofs.«407288_j86517821210741_1_alg».proof.Proof.Gen.KernelIdeal.Launch
import proofs.«407288_j86517821210741_1_alg».proof.Proof.Gen.KernelIdeal.Skeleton
import proofs.«407288_j86517821210741_1_alg».proof.Proof.Gen.KernelIdeal.Points
import proofs.«407288_j86517821210741_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

/-! ## The two stretches as functions -/

/-- The flat row index of every point: p₀ · 9216 + p₁ · 96 + p₂ on 32-bit words. -/
def flatIdx (pts : IVec S100000x3 32) : IVec S100000 32 :=
  addi
    (addi
      (muli (shapeCast S100000 (extractStridedSlice S100000x1 ![0, 0] pts slices_S100000x3_S100000x1_0_0) shapeCasts_S100000x1_S100000)
        (broadcastInDim S100000 ![] bcast_S_S100000 (constantI S_ 32 9216#32)))
      (muli (shapeCast S100000 (extractStridedSlice S100000x1 ![0, 1] pts slices_S100000x3_S100000x1_0_1) shapeCasts_S100000x1_S100000)
        (broadcastInDim S100000 ![] bcast_S_S100000 (constantI S_ 32 96#32))))
    (shapeCast S100000 (extractStridedSlice S100000x1 ![0, 2] pts slices_S100000x3_S100000x1_0_2) shapeCasts_S100000x1_S100000)

/-- An index with a negative one moved up by the table's length. -/
def wrapIdx (idx : IVec S100000 32) : IVec S100000 32 :=
  select (cmpi .slt idx (broadcastInDim S100000 ![] bcast_S_S100000 (constantI S_ 32 0#32)))
    (addi idx (broadcastInDim S100000 ![] bcast_S_S100000 (constantI S_ 32 884736#32))) idx

/-- The wrapped indices as a [100000, 1] column: the gather's start indices. -/
def idxCol (idx : IVec S100000 32) : IVec S100000x1 32 :=
  broadcastInDim S100000x1 ![0] bcast_S100000_S100000x1_0 (wrapIdx idx)

/-- Per point, whether its start index lies in 0 … 884735: the two comparisons, joined, and reduced over the unit axis. -/
def inBounds (idx : IVec S100000 32) : IVec S100000 1 :=
  Host.reduce IntOp.andi
    (andi
      (cmpi .sge (idxCol idx) (broadcastInDim S100000x1 ![] bcast_S_S100000x1 (constantI S_ 32 0#32)))
      (cmpi .sle (idxCol idx)
        (broadcastInDim S100000x1 ![0, 1] bcast_S1x1_S100000x1_0_1 (broadcastInDim S1x1 ![1] bcast_S1_S1x1_1 (constantI S1 32 884735#32)))))
    (constantI S_ 1 1#1) reducesTo_S100000x1_S100000_d1 h_S_

/-- The table's rows at the indices; a row whose index is out of bounds is the constant row. -/
def takeRows (tbl : FVec F S884736x128 .f32) (idx : IVec S100000 32) : FVec F S100000x128 .f32 :=
  select (broadcastInDim S100000x128 ![0] bcast_S100000_S100000x128_0 (inBounds idx))
    (Host.gather gather_S884736x128_S100000x1_S100000x128_1_0_n_n_0_1_1128 tbl (idxCol idx))
    (broadcastInDim S100000x128 ![] bcast_S_S100000x128 (constant S_ .f32 0x7FC00000#32))

/-! ## What the two stretches leave in their result buffers -/

/-- After the first stretch the flat-index buffer holds `flatIdx` of the points, whatever else the buffers held. -/
theorem after_hostOps1_v14 (W : Valuation τ sig (Elt F)) :
    StableHlo.after hostOps1 W (Proc.devRef .tc main_v14) = flatIdx (W (Proc.devRef .tc main_arg1)) := by
  after_results
  rfl

set_option maxHeartbeats 2000000 in
/-- After the second stretch the result buffer holds `takeRows` of the table and the flat indices. -/
theorem after_hostOps1_1_v15 (W : Valuation τ sig (Elt F)) :
    StableHlo.after hostOps1_1 W (Proc.devRef .tc main_v15) = takeRows (W (Proc.devRef .tc main_v2)) (W (Proc.devRef .tc main_v14)) := by
  after_results_simp
  simp only [StableHlo.TRef.ofBuf, StableHlo.TRef.toBuf, cast_eq]
  rfl

end Cert.KernelIdeal.Hand

end
-- ==== Proof.KI.HostIndexValue.lean ====
/-
  The host lines between the two kernel regions, read at one element.

  Point n's flat index is p₀ · 9216 + p₁ · 96 + p₂ on 32-bit words. When every coordinate lies in 0 … 95 the three
  products and two sums stay below 2³² (at most 95 · 9216 + 95 · 96 + 95 = 884735), so the word read unsigned is the
  voxel's row number. Such an index reads non-negative signed, so it is not moved; the column of start indices holds it;
  both comparisons 0 ≤ index and index ≤ 884735 hold at every point, so the reduction by `and` over the unit axis is 1
  everywhere; the gather's clamp into 0 … 884735 leaves it; and the final select keeps the gathered row. Result
  element (n, ch) is therefore the table at (voxel of n, ch).
-/
import proofs.«407288_j86517821210741_1_alg».proof.Proof.KI.HostIndex
import Idealize.ShloMosaic.Lib.StableHlo.Predicate
import Idealize.ShloMosaic.PureOps.Reduce

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

/-! ## One flat index -/

/-- A coordinate column read at point `n`: the flattening keeps the row-major position, the slice shifts the column. -/
theorem col_apply (pts : IVec S100000x3 32) (o : Nat) (k : Fin 3) (ho : k.val = o) (h : S100000x3.Slices ![0, o] S100000x1)
    (hc : S100000x1.ShapeCasts S100000) (n : Fin 100000) :
    shapeCast S100000 (extractStridedSlice S100000x1 ![0, o] pts h) hc (ix1 n) = pts (ix2 n k) := by
  refine (shapeCast_apply _ hc (ix1 n) (ix2 n (0 : Fin 1)) (by
    rw [Shape.rowMajor_val_two, Shape.rowMajor_val_one]; show n.val * 1 + 0 = n.val; omega)).trans ?_
  exact extractStridedSlice_apply _ pts h (ix2 n (0 : Fin 1)) (ix2 n k) (fun a => match a with
    | ⟨0, _⟩ => by show n.val = 0 + n.val; omega
    | ⟨1, _⟩ => by show k.val = o + 0; omega)

/-- Point `n`'s flat index is p₀ · 9216 + p₁ · 96 + p₂ on words. -/
theorem flatIdx_apply (pts : IVec S100000x3 32) (n : Fin 100000) :
    flatIdx pts (ix1 n) = pts (ix2 n 0) * 9216#32 + pts (ix2 n 1) * 96#32 + pts (ix2 n 2) := by
  show IntOp.addi (IntOp.addi
      (IntOp.muli (shapeCast S100000 (extractStridedSlice S100000x1 ![0, 0] pts slices_S100000x3_S100000x1_0_0) shapeCasts_S100000x1_S100000 (ix1 n)) 9216#32)
      (IntOp.muli (shapeCast S100000 (extractStridedSlice S100000x1 ![0, 1] pts slices_S100000x3_S100000x1_0_1) shapeCasts_S100000x1_S100000 (ix1 n)) 96#32))
      (shapeCast S100000 (extractStridedSlice S100000x1 ![0, 2] pts slices_S100000x3_S100000x1_0_2) shapeCasts_S100000x1_S100000 (ix1 n)) = _
  rw [col_apply pts 0 0 rfl, col_apply pts 1 1 rfl, col_apply pts 2 2 rfl]
  rfl

/-- In range nothing wraps: the flat index, read unsigned, is the voxel's row number. -/
theorem flatIdx_toNat (pts : IVec S100000x3 32) (h : Cert.Spec.InRange pts) (n : Fin 100000) :
    (flatIdx pts (ix1 n)).toNat = (Cert.Spec.vox pts n).val := by
  have h0 := Cert.Spec.coord_toNat h n 0
  have h1 := Cert.Spec.coord_toNat h n 1
  have h2 := Cert.Spec.coord_toNat h n 2
  have l0 := (Cert.Spec.coord pts n 0).isLt
  have l1 := (Cert.Spec.coord pts n 1).isLt
  have l2 := (Cert.Spec.coord pts n 2).isLt
  rw [flatIdx_apply]
  show _ = 9216 * (Cert.Spec.coord pts n 0).val + 96 * (Cert.Spec.coord pts n 1).val + (Cert.Spec.coord pts n 2).val
  simp only [BitVec.toNat_add, BitVec.toNat_mul, BitVec.toNat_ofNat, h0, h1, h2]
  omega

/-! ## The wrapped index, the column, the bounds test -/

/-- An index that reads non-negative is left as it is. -/
theorem wrapIdx_apply (idx : IVec S100000 32) (n : Fin 100000) (hx : (idx (ix1 n)).toNat < 2 ^ 31) :
    wrapIdx idx (ix1 n) = idx (ix1 n) := by
  show Scalar.select (IntOp.cmpi .slt (idx (ix1 n)) 0#32) (IntOp.addi (idx (ix1 n)) 884736#32) (idx (ix1 n)) = _
  have hc : ¬ IntOp.cmpi .slt (idx (ix1 n)) 0#32 = 1#1 := fun e =>
    Nat.not_lt_zero _ ((StableHlo.Predicate.slt_iff_toNat hx (by decide)).1 e)
  rw [eq_zero_of_ne_one hc, select_zero]

/-- The column at row `a` is the wrapped index of point `a`. -/
theorem idxCol_apply (idx : IVec S100000 32) (a : Fin 100000) (b : Fin 1) :
    idxCol idx (ix2 a b) = wrapIdx idx (ix1 a) := by
  have e := broadcastInDim_apply ![0] bcast_S100000_S100000x1_0 (wrapIdx idx) (ix2 a b) (ix1 a) (fun c => match c with
    | ⟨0, _⟩ => by show a.val = if (100000 : Nat) = 1 then 0 else a.val; rw [if_neg (by decide)])
  exact e

/-- A left fold by `and` from 1 over 1s is 1. -/
theorem foldl_andi_one {ι : Type} (f : ι → BitVec 1) :
    ∀ l : List ι, (∀ i ∈ l, f i = 1#1) → l.foldl (fun r i => IntOp.andi r (f i)) 1#1 = 1#1
  | [], _ => rfl
  | a :: l, h => by
    rw [List.foldl_cons, h a List.mem_cons_self, show IntOp.andi 1#1 1#1 = 1#1 from by decide]
    exact foldl_andi_one f l fun i hi => h i (List.mem_cons_of_mem _ hi)

/-- When every index lies in 0 … 884735 every point passes the bounds test. -/
theorem inBounds_apply (idx : IVec S100000 32) (hx : ∀ n : Fin 100000, (idx (ix1 n)).toNat ≤ 884735) (n : Fin 100000) :
    inBounds idx (ix1 n) = 1#1 := by
  unfold inBounds
  rw [Host.reduce_eq_foldl]
  refine foldl_andi_one _ _ fun i _ => ?_
  obtain ⟨a, b, rfl⟩ : ∃ (a : Fin 100000) (b : Fin 1), i = ix2 a b := ⟨i 0, i 1, eq_ix2 i⟩
  show IntOp.andi (IntOp.cmpi .sge (idxCol idx (ix2 a b)) 0#32) (IntOp.cmpi .sle (idxCol idx (ix2 a b)) 884735#32) = 1#1
  have ha := hx a
  rw [idxCol_apply, wrapIdx_apply idx a (by omega),
    (StableHlo.Predicate.sge_iff_toNat (by omega) (by decide)).2 (by simp),
    (StableHlo.Predicate.sle_iff_toNat (by omega) (by decide)).2 (by simpa using ha)]
  decide

/-! ## The gather read at one element -/

/-- The gather's dimension numbers: operand [884736, 128], start indices [100000, 1], result [100000, 128]. -/
abbrev 𝔾 : GatherDims S884736x128 S100000x1 S100000x128 := gather_S884736x128_S100000x1_S100000x128_1_0_n_n_0_1_1128

/-- Result element (n, ch) of the gather is the table at the row the column names at `n`, read signed and clamped into
    the table, and at channel `ch`: axis 0 is collapsed and start-indexed, axis 1 is the one offset axis. -/
theorem gather_apply {α : Type} {w : Nat} (tbl : S884736x128.Idx → α) (col : IVec S100000x1 w) (n : Fin 100000) (ch : Fin 128) :
    Host.gather 𝔾 tbl col (ix2 n ch)
      = tbl (ix2 (⟨min (col (ix2 n (0 : Fin 1))).toInt.toNat 884735, by omega⟩ : Fin 884736) ch) := by
  unfold Host.gather
  refine congrArg tbl (funext fun a => Fin.ext ?_)
  match a with
  | ⟨0, _⟩ =>
    show 𝔾.start (ix2 n ch) col 0 + 𝔾.batchCoord (ix2 n ch) 0 + 𝔾.offCoord (ix2 n ch) 0 = min (col (ix2 n (0 : Fin 1))).toInt.toNat 884735
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ 𝔾.startIndexMap from List.mem_singleton.mpr rfl)]
    have hsi : 𝔾.siIdx (ix2 n ch) ⟨List.idxOf (0 : Fin 2) 𝔾.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show 𝔾.start (ix2 n ch) col 1 + 𝔾.batchCoord (ix2 n ch) 1 + 𝔾.offCoord (ix2 n ch) 1 = ch.val
    rw [GatherDims.batchCoord_eq_zero _ _ _ List.not_mem_nil]
    unfold GatherDims.start
    rw [dif_neg (show ¬ (1 : Fin 2) ∈ 𝔾.startIndexMap from by decide)]
    unfold GatherDims.offCoord
    rw [dif_pos (show (1 : Fin 2) ∈ 𝔾.sKept from by decide)]
    show 0 + 0 + ch.val = ch.val
    omega

/-! ## The rows read in range -/

/-- In range, point `n`'s row is the table's row at the voxel the point names. -/
theorem takeRows_flatIdx (pts : IVec S100000x3 32) (h : Cert.Spec.InRange pts) (tbl : FVec F S884736x128 .f32)
    (n : Fin 100000) (ch : Fin 128) :
    takeRows tbl (flatIdx pts) (ix2 n ch) = tbl (ix2 (Cert.Spec.vox pts n) ch) := by
  have hv : ∀ m : Fin 100000, (flatIdx pts (ix1 m)).toNat ≤ 884735 := fun m => by
    rw [flatIdx_toNat pts h m]; have := (Cert.Spec.vox pts m).isLt; omega
  unfold takeRows
  have hb := broadcastInDim_apply ![0] bcast_S100000_S100000x128_0 (inBounds (flatIdx pts)) (ix2 n ch) (ix1 n) (fun c => match c with
      | ⟨0, _⟩ => by show n.val = if (100000 : Nat) = 1 then 0 else n.val; rw [if_neg (by decide)])
  rw [select_apply, hb, inBounds_apply _ hv n, select_one, gather_apply]
  refine congrArg tbl (congrArg (fun r => ix2 r ch) (Fin.ext ?_))
  show min (idxCol (flatIdx pts) (ix2 n (0 : Fin 1))).toInt.toNat 884735 = (Cert.Spec.vox pts n).val
  rw [idxCol_apply, wrapIdx_apply _ n (by have := hv n; omega),
    StableHlo.Predicate.toInt_eq_toNat_of_lt (by have := hv n; omega), Int.toNat_natCast, flatIdx_toNat pts h n]
  have := (Cert.Spec.vox pts n).isLt
  omega

end Cert.KernelIdeal.Hand

end
-- ==== Proof.KI.StepValue.lean ====
/-
  The second kernel's arithmetic, read at the one index of its [1,1] accumulator, on the extended reals.

  At a grid point the body holds two [10000,128] blocks x0 (gathered volume rows) and x1 (features) and the accumulator's
  one entry a. It forms d = x0 − x1 · c elementwise, where c is the named constant "inv_200", which the certificate's
  table reads as the rational 1/200; squares d; sums each row over its 128 lanes, giving a [10000] vector; views that as
  a [10000,1] column; sums the column over its 10000 rows, giving a [1] vector; views that as [1,1]; and adds a. So the
  new entry is

      a + ∑ r < 10000, ∑ ch < 128, (x0[r,ch] − x1[r,ch] · (1/200))²

  The first step of the run stores the zero word instead, whose value is 0. Only the shape of the sums is read here: a
  sum over one axis is the sum over that axis's coordinates, a shape cast keeps the row-major position, and the
  elementwise operations are those of the extended reals. Nothing is regrouped, so no finiteness is used.
-/
import proofs.«407288_j86517821210741_1_alg».proof.Proof.Gen.KernelIdeal.Launch
import proofs.«407288_j86517821210741_1_alg».proof.Proof.Gen.KernelIdeal.Skeleton
import proofs.«407288_j86517821210741_1_alg».proof.Proof.Gen.KernelIdeal.Points
import proofs.«407288_j86517821210741_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-! ## The named constant -/

/-- The named reciprocal denotes the rational 1/200, by the certificate's table. -/
theorem inv200 : Named.named (F := Ideal) Cert.KernelIdeal.κ "inv_200" (φ := .f32) 0x3BA3D70A#32 = ((1 / 200 : ℝ) : EReal) :=
  IdealRules.named_const.ideal_named_scalar _ _ _ _ rfl

/-! ## The two sums and the two shape casts, each at an index -/

/-- The sum over the lanes of a [10000,128] vector, at row `r`: the inserted index is (r, ch), so it is the sum over
    `ch` of the entries of row `r`. -/
theorem laneSum_apply (x : FVec Ideal S10000x128 .f32) (h : S10000x128.Reduces [1] S10000) (hφ : FKind.Formats .f32)
    (hacc : (0x00000000#32 : BitVec 32) = 0x00000000#32) (r : Fin 10000) :
    multiReduction (F := Ideal) .add [1] S10000 x 0x00000000#32 h hφ hacc (ix1 r) = ∑ ch : Fin 128, x (ix2 r ch) := by
  refine (Ideal.multiReduction_add_single x 0x00000000#32 h hφ hacc (ix1 r)).trans ?_
  refine Finset.sum_congr rfl fun ch _ => congrArg x ?_
  funext a
  match a with
  | ⟨0, _⟩ => rfl
  | ⟨1, _⟩ => rfl

/-- The sum over the rows of a [10000,1] column, at its one index: the inserted index is (r, 0), so it is the sum over
    `r` of the column's entries. -/
theorem sublaneSum_apply (x : FVec Ideal S10000x1 .f32) (h : S10000x1.Reduces [0] S1) (hφ : FKind.Formats .f32)
    (hacc : (0x00000000#32 : BitVec 32) = 0x00000000#32) :
    multiReduction (F := Ideal) .add [0] S1 x 0x00000000#32 h hφ hacc (ix1 (0 : Fin 1)) = ∑ r : Fin 10000, x (ix2 r (0 : Fin 1)) := by
  refine (Ideal.multiReduction_add_single x 0x00000000#32 h hφ hacc (ix1 (0 : Fin 1))).trans ?_
  refine Finset.sum_congr rfl fun r _ => congrArg x ?_
  funext a
  match a with
  | ⟨0, _⟩ => rfl
  | ⟨1, _⟩ => rfl

/-- A [10000] vector viewed as a [10000,1] column reads entry `r` at (r, 0): both have row-major position r. -/
theorem column_apply (x : FVec Ideal S10000 .f32) (h : S10000.ShapeCasts S10000x1) (r : Fin 10000) :
    shapeCast S10000x1 x h (ix2 r (0 : Fin 1)) = x (ix1 r) := by
  refine shapeCast_apply x h (ix2 r (0 : Fin 1)) (ix1 r) ?_
  rw [Shape.rowMajor_val_one, Shape.rowMajor_val_two]
  show r.val = r.val * 1 + 0
  omega

/-- A [1] vector viewed as [1,1] reads its one entry at (0, 0): both have row-major position 0. -/
theorem unit_apply (x : FVec Ideal S1 .f32) (h : S1.ShapeCasts S1x1) :
    shapeCast S1x1 x h (ix2 (0 : Fin 1) (0 : Fin 1)) = x (ix1 (0 : Fin 1)) := by
  refine shapeCast_apply x h (ix2 (0 : Fin 1) (0 : Fin 1)) (ix1 (0 : Fin 1)) ?_
  rw [Shape.rowMajor_val_one, Shape.rowMajor_val_two]
  rfl

/-! ## The two stored values -/

/-- What the first grid point stores before it accumulates: the zero word broadcast, through an identity cast; its value
    is 0. -/
theorem pay1_apply : k1_pay1 (F := Ideal) (ix2 (0 : Fin 1) (0 : Fin 1)) = 0 := by
  unfold k1_pay1
  rw [shapeCast_self]
  show Ideal.ofBits .f32 0x00000000#32 = 0
  exact Ideal.ofBits_zero_f32

/-- What every grid point stores: the accumulator's entry plus the block's sum of squared differences, rows outermost.
    The outer identity cast and the sum with `a` are read first; then the [1]→[1,1] cast, the sum over rows, the
    [10000]→[10000,1] cast and the sum over lanes, each at its index; last the elementwise square of the difference,
    with the named constant read as 1/200. -/
theorem pay2_apply (x0 x1 : Vec Ideal S10000x128 .f32) (a : Vec Ideal S1x1 .f32) :
    k1_pay2 (F := Ideal) x0 x1 a (ix2 (0 : Fin 1) (0 : Fin 1))
      = a (ix2 0 0) + ∑ r : Fin 10000, ∑ ch : Fin 128, (x0 (ix2 r ch) - x1 (ix2 r ch) * ((1 / 200 : ℝ) : EReal)) * (x0 (ix2 r ch) - x1 (ix2 r ch) * ((1 / 200 : ℝ) : EReal)) := by
  unfold k1_pay2
  rw [shapeCast_self]
  refine congrArg (fun z => a (ix2 0 0) + z) ?_
  refine (unit_apply _ _).trans ?_
  refine (sublaneSum_apply _ _ _ _).trans ?_
  refine Finset.sum_congr rfl fun r _ => ?_
  refine (column_apply _ _ r).trans ?_
  refine (laneSum_apply _ _ _ _ r).trans ?_
  refine Finset.sum_congr rfl fun ch _ => ?_
  rw [shapeCast_self]
  show (x0 (ix2 r ch) - x1 (ix2 r ch) * Named.named (F := Ideal) Cert.KernelIdeal.κ "inv_200" (φ := .f32) 0x3BA3D70A#32)
      * (x0 (ix2 r ch) - x1 (ix2 r ch) * Named.named (F := Ideal) Cert.KernelIdeal.κ "inv_200" (φ := .f32) 0x3BA3D70A#32) = _
  rw [inv200]

end Cert.KernelIdeal.Hand

end
-- ==== Proof.KI.ReduceValue.lean ====
/-
  The second kernel region's values. A window's block at point t is rows 10000·t … 10000·t + 9999 of its array; the
  [1, 1] result array ends holding the scratch word after the last point, the only one that writes it back; and, at
  the ideal instance, that word is the sum over all 100000 rows and 128 channels of (gathered − feature · (1/200))²:
  each point adds its block's sum to the word (the first to the zero word), and the ten block sums regroup into the
  one sum over the rows. Only addition of extended reals is reassociated and commuted.
-/
import proofs.«407288_j86517821210741_1_alg».proof.Proof.Gen.KernelIdeal.Launch
import proofs.«407288_j86517821210741_1_alg».proof.Proof.Gen.KernelIdeal.Skeleton
import proofs.«407288_j86517821210741_1_alg».proof.Proof.Gen.KernelIdeal.Points
import proofs.«407288_j86517821210741_1_alg».proof.Proof.Spec
import proofs.«407288_j86517821210741_1_alg».proof.Proof.KI.Reduce
import proofs.«407288_j86517821210741_1_alg».proof.Proof.KI.StepValue
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## A block's element is an element of the array -/

/-- The printed index maps of the two operand windows, decided over the grid: the row-block index is the point, the
    column-block index is zero. -/
theorem rows_idx : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row `r` of block `t` is a row of the array. -/
theorem row_lt (t : Fin cfg1.N) (r : Fin 10000) : 10000 * t.val + r.val < 100000 := by
  have h : cfg1.N = 10 := N_1
  have := t.isLt; have := r.isLt; omega

/-- Element (r, ch) of the gathered rows' block at point `t` is element (10000·t + r, ch) of the gathered rows: a block's
    coordinate in the array is its block index times the block's size plus the coordinate inside the block. -/
theorem rblk_apply0 (c : Dev nD) (t : Fin cfg1.N) (r : Fin 10000) (ch : Fin 128) :
    rblk V c 0 t (ix2 r ch) = V c main_v15 (ix2 (⟨10000 * t.val + r.val, row_lt t r⟩ : Fin 100000) ch) := by
  unfold rblk
  rw [View.read_apply]
  show V c main_v15 (((cfg1.win 0).blk t).view.emb (ix2 r ch)) = _
  obtain ⟨e0, e1, -, -⟩ := rows_idx t
  congr 1
  funext a; apply Fin.ext
  match a with
  | ⟨0, _⟩ => show win1_0.index t (0 : Fin 2) * 10000 + 1 * r.val = 10000 * t.val + r.val; omega
  | ⟨1, _⟩ => show win1_0.index t (1 : Fin 2) * 128 + 1 * ch.val = ch.val; omega

/-- The same for the feature rows' block. -/
theorem rblk_apply1 (c : Dev nD) (t : Fin cfg1.N) (r : Fin 10000) (ch : Fin 128) :
    rblk V c 1 t (ix2 r ch) = V c main_arg2 (ix2 (⟨10000 * t.val + r.val, row_lt t r⟩ : Fin 100000) ch) := by
  unfold rblk
  rw [View.read_apply]
  show V c main_arg2 (((cfg1.win 1).blk t).view.emb (ix2 r ch)) = _
  obtain ⟨-, -, e0, e1⟩ := rows_idx t
  congr 1
  funext a; apply Fin.ext
  match a with
  | ⟨0, _⟩ => show win1_1.index t (0 : Fin 2) * 10000 + 1 * r.val = 10000 * t.val + r.val; omega
  | ⟨1, _⟩ => show win1_1.index t (1 : Fin 2) * 128 + 1 * ch.val = ch.val; omega

/-! ## The result array after the region -/

/-- The result window's printed index map, decided over the grid: its one block is block (0, 0) at every point. -/
theorem out_idx : ∀ t : Fin cfg1.N, win1_2.index t (0 : Fin 2) = 0 ∧ win1_2.index t (1 : Fin 2) = 0 :=
  (by decide +kernel : ∀ t : Fin grid1.N, _)

/-- The last point. -/
theorem nine_lt : 9 < cfg1.N := by decide

/-- Only the last point writes the result back. -/
theorem flush_last (t : Fin cfg1.N) (hf : (cfg1.win 2).flush t = true) : t = ⟨9, nine_lt⟩ := by
  have h9 := (flush1_2 t).mp hf
  have hN : cfg1.N = 10 := N_1
  have := t.isLt
  exact Fin.ext (by show t.val = 9; omega)

/-- What the last point writes back is the whole [1, 1] array at the scratch word after it. -/
theorem flushed_last (c : Dev nD) (t : Fin cfg1.N) (hf : (cfg1.win 2).flush t = true) :
    (datR V c).flushed 2 t = ((cfg1.win 2).blk t).view.read (Elt F) (accAt V c 9 nine_lt) := by
  obtain rfl := flush_last t hf
  show (cfg1.win 2).cut (grid1.coords _) ((datR V c).after 2 _) = _
  rw [datR_after2]
  funext y
  rw [View.read_apply]
  obtain ⟨e0, e1⟩ := out_idx ⟨9, nine_lt⟩
  show accAt V c 9 nine_lt ((cfg1.win 2).xinj (grid1.coords ⟨9, nine_lt⟩) y)
    = accAt V c 9 nine_lt (((cfg1.win 2).blk ⟨9, nine_lt⟩).view.emb y)
  congr 1
  funext a; apply Fin.ext
  match a with
  | ⟨0, _⟩ => show (y 0).val = win1_2.index ⟨9, nine_lt⟩ (0 : Fin 2) * 1 + 1 * (y 0).val; omega
  | ⟨1, _⟩ => show (y 1).val = win1_2.index ⟨9, nine_lt⟩ (1 : Fin 2) * 1 + 1 * (y 1).val; omega

/-- Every index of the [1, 1] array lies in the last point's block. -/
theorem cover_last (c : Dev nD) (i : ((cfg1.win 2).arr.view.loc (c.tc : Thread nD τ)).2.ty.Idx) :
    ∃ t : Fin cfg1.N, (cfg1.win 2).flush t = true ∧ i ∈ ((cfg1.win 2).blk t).view.set := by
  refine ⟨⟨9, nine_lt⟩, (flush1_2 _).mpr rfl, ?_⟩
  obtain ⟨e0, e1⟩ := out_idx ⟨9, nine_lt⟩
  show i ∈ ((View.whole main_v16).slice (win1_2.rect ⟨9, nine_lt⟩)).set
  rw [View.set_slice_whole, Rect.mem_set_unit]
  intro a
  match a with
  | ⟨0, _⟩ =>
    show win1_2.index ⟨9, nine_lt⟩ (0 : Fin 2) * 1 ≤ (i 0).val ∧ (i 0).val < win1_2.index ⟨9, nine_lt⟩ (0 : Fin 2) * 1 + 1
    have hi : (i 0).val < 1 := (i 0).isLt
    omega
  | ⟨1, _⟩ =>
    show win1_2.index ⟨9, nine_lt⟩ (1 : Fin 2) * 1 ≤ (i 1).val ∧ (i 1).val < win1_2.index ⟨9, nine_lt⟩ (1 : Fin 2) * 1 + 1
    have hi : (i 1).val < 1 := (i 1).isLt
    omega

/-- THE RESULT ARRAY after the region is the scratch word after the last point. -/
theorem result_arr (c : Dev nD) : (datR V c).arrAt 2 cfg1.N = accAt V c 9 nine_lt :=
  (datR V c).arrAt_eq_of_cover 2 (accAt V c 9 nine_lt) (fun t hf => flushed_last V c t hf) (fun i => cover_last c i)

/-! ## Regrouping the rows: 10 blocks of 10000 rows are the 100000 rows -/

/-- A sum over the 100000 rows is the sum over the 10 row blocks of the sums over each block's 10000 rows: row
    `10000·t + r` is row `r` of block `t`, and the pairs (t, r) enumerate the rows once each. -/
theorem sum_rows {M : Type*} [AddCommMonoid M] (f : Fin 100000 → M) :
    ∑ t : Fin 10, ∑ r : Fin 10000, f ⟨10000 * t.val + r.val, by have := t.isLt; have := r.isLt; omega⟩ = ∑ n : Fin 100000, f n := by
  rw [← (finProdFinEquiv (m := 10) (n := 10000)).sum_comp f, Fintype.sum_prod_type]
  refine Finset.sum_congr rfl fun t _ => Finset.sum_congr rfl fun r _ => ?_
  congr 1
  apply Fin.ext
  show 10000 * t.val + r.val = r.val + 10000 * t.val
  omega

/-! ## The scratch word after the last point, at the ideal instance -/

section AtIdeal

variable (W : (c : Dev nD) → (b : Ref sig .tc) → Buf (Elt Ideal) ((c : Thread nD τ).loc b))

/-- One squared difference, at row `n` and channel `ch` of a gathered array `g` and a feature array `f`. -/
def sqAt (g f : FVec Ideal S100000x128 .f32) (n : Fin 100000) (ch : Fin 128) : EReal :=
  (g (ix2 n ch) - f (ix2 n ch) * ((1 / 200 : ℝ) : EReal)) * (g (ix2 n ch) - f (ix2 n ch) * ((1 / 200 : ℝ) : EReal))

/-- The sum of the squared differences over block `t`'s rows and all channels. -/
def blockSum (g f : FVec Ideal S100000x128 .f32) (t : Fin cfg1.N) : EReal :=
  ∑ r : Fin 10000, ∑ ch : Fin 128, sqAt g f ⟨10000 * t.val + r.val, row_lt t r⟩ ch

/-- What a point adds to the word it finds, for any two [10000, 128] blocks that are rows 10000·t … 10000·t + 9999 of
    `g` and of `f`: that block's sum. -/
theorem pay2_lit (x0 x1 : Vec Ideal S10000x128 .f32) (a : Vec Ideal S1x1 .f32) (g f : FVec Ideal S100000x128 .f32) (t : Fin cfg1.N)
    (h0 : ∀ (r : Fin 10000) (ch : Fin 128), x0 (ix2 r ch) = g (ix2 ⟨10000 * t.val + r.val, row_lt t r⟩ ch))
    (h1 : ∀ (r : Fin 10000) (ch : Fin 128), x1 (ix2 r ch) = f (ix2 ⟨10000 * t.val + r.val, row_lt t r⟩ ch)) :
    k1_pay2 (F := Ideal) x0 x1 a (ix2 (0 : Fin 1) (0 : Fin 1)) = a (ix2 0 0) + blockSum g f t := by
  refine (pay2_apply x0 x1 a).trans ?_
  congr 1
  unfold blockSum sqAt
  refine Finset.sum_congr rfl fun r _ => Finset.sum_congr rfl fun ch _ => ?_
  rw [h0, h1]

/-- The same at the blocks the region's windows read at point `t`, `g` and `f` the two arrays the region finds. -/
theorem pay2_rows (c : Dev nD) (g f : FVec Ideal S100000x128 .f32) (hg : W c main_v15 = g) (hf : W c main_arg2 = f)
    (t : Fin cfg1.N) (a : Vec Ideal S1x1 .f32) :
    k1_pay2 (F := Ideal) (rblk W c 0 t) (rblk W c 1 t) a (ix2 (0 : Fin 1) (0 : Fin 1)) = a (ix2 0 0) + blockSum g f t :=
  pay2_lit (rblk W c 0 t) (rblk W c 1 t) a g f t
    (fun r ch => (rblk_apply0 W c t r ch).trans (congrFun hg _))
    (fun r ch => (rblk_apply1 W c t r ch).trans (congrFun hf _))

/-- After point `n` the scratch word is the sum of the block sums of points 0 … n: the first point starts from the zero
    word (0 + x = x), each later one adds its block sum to what the point before left. -/
theorem accAt_blocks (c : Dev nD) (g f : FVec Ideal S100000x128 .f32) (hg : W c main_v15 = g) (hf : W c main_arg2 = f) :
    ∀ (n : ℕ) (h : n < cfg1.N),
      accAt W c n h (ix2 (0 : Fin 1) (0 : Fin 1)) = ∑ i : Fin (n + 1), blockSum g f ⟨i.val, Nat.lt_of_lt_of_le i.isLt h⟩
  | 0, h => by
    rw [Fin.sum_univ_one, accAt_zero, pay2_rows W c g f hg hf, pay1_apply, zero_add]
    rfl
  | n + 1, h => by
    rw [Fin.sum_univ_castSucc, accAt_succ, pay2_rows W c g f hg hf, accAt_blocks c g f hg hf n (Nat.lt_of_succ_lt h)]
    rfl

/-- THE SCRATCH WORD AFTER THE LAST POINT is the sum of all squared differences, rows outermost: the ten block sums,
    regrouped into one sum over the 100000 rows. -/
theorem accAt_total (c : Dev nD) (g f : FVec Ideal S100000x128 .f32) (hg : W c main_v15 = g) (hf : W c main_arg2 = f) :
    accAt W c 9 nine_lt (ix2 (0 : Fin 1) (0 : Fin 1))
      = ∑ n : Fin 100000, ∑ ch : Fin 128,
          (g (ix2 n ch) - f (ix2 n ch) * ((1 / 200 : ℝ) : EReal)) * (g (ix2 n ch) - f (ix2 n ch) * ((1 / 200 : ℝ) : EReal)) := by
  rw [accAt_blocks W c g f hg hf 9 nine_lt]
  exact sum_rows (fun n => ∑ ch : Fin 128, sqAt g f n ch)

end AtIdeal

end Cert.KernelIdeal.Hand

end
-- ==== Proof.KI.KernelValue.lean ====
/-
  The kernel program's result is the sum of squared differences of the specification. Reading the end contents
  backwards: the scalar result is the one entry of the second region's [1, 1] result array, which is the accumulator
  after the last point, which is the sum over all rows n and channels ch of (gathered[n, ch] − feature[n, ch] · (1/200))².
  The gathered row n is row 9216·p₀ + 96·p₁ + p₂ of the first region's result, the transposed table, so its entry ch is
  the volume's entry (ch, p₀, p₁, p₂) — when the point's coordinates are positions on their axes.
-/
import proofs.«407288_j86517821210741_1_alg».proof.Proof.KI.Run
import proofs.«407288_j86517821210741_1_alg».proof.Proof.KI.TransposeValue
import proofs.«407288_j86517821210741_1_alg».proof.Proof.KI.HostIndexValue
import proofs.«407288_j86517821210741_1_alg».proof.Proof.KI.ReduceValue
import proofs.«407288_j86517821210741_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-! ## Buffers that reach the second region as launched, or as the first region left them -/

/-- The points: no item before the index arithmetic writes them. -/
theorem W2_main_arg1 (c : Dev nD) : W2 m c (Proc.devRef .tc main_arg1) = m ((c : Thread nD τ).loc main_arg1) :=
  (W2_of_ne m c main_arg1 (by decide)).trans
    (StableHlo.after_of_writes_sub hostOps0 _ hostOps0_writes (r := main_arg1) (by decide))

/-- The feature rows, at the second region's entry. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps1_1 _ hostOps1_1_writes (r := main_arg2) (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = m ((c : Thread nD τ).loc main_arg2) := StableHlo.after_of_writes_sub hostOps0 _ hostOps0_writes (r := main_arg2) (by decide)

/-- The transposed table: the index arithmetic does not write it. -/
theorem W3_main_v2 (c : Dev nD) : W3 m c (Proc.devRef .tc main_v2) = W2 m c (Proc.devRef .tc main_v2) :=
  StableHlo.after_of_writes_sub hostOps1 _ hostOps1_writes (r := main_v2) (by decide)

/-- Row 9216·p₀ + 96·p₁ + p₂ of the transposed table at channel `ch` is the volume's entry (ch, p₀, p₁, p₂): the table is
    the transpose of the volume read as [128, 884736], whose column 9216·d + 96·h + w is voxel (d, h, w). -/
theorem table_apply (c : Dev nD) (pts : IVec Cert.Spec.SPts 32) (n : Fin 100000) (ch : Fin 128) :
    W2 m c (Proc.devRef .tc main_v2) (ix2 (Cert.Spec.vox pts n) ch)
      = m ((c : Thread nD τ).loc main_arg0) (ix5 (0 : Fin 1) ch (Cert.Spec.coord pts n 0) (Cert.Spec.coord pts n 1) (Cert.Spec.coord pts n 2)) := by
  rw [W2_arr m c 1]
  refine (transposed_whole (entry0 m) c _ ch).trans ?_
  exact after_hostOps0_v1 (W0 m c) ch _ _ _

/-! ## The gathered rows -/

/-- Row `n` of the selected rows, at channel `ch`, is the volume's entry the point names, when every coordinate is a
    position on its axis: the flat index does not wrap, is in bounds, and selects that row of the table. -/
theorem gathered_apply (c : Dev nD) (h : Cert.Spec.InRange (m ((c : Thread nD τ).loc main_arg1))) (n : Fin 100000) (ch : Fin 128) :
    W4 m c (Proc.devRef .tc main_v15) (ix2 n ch)
      = Cert.Spec.sample (m ((c : Thread nD τ).loc main_arg0)) (m ((c : Thread nD τ).loc main_arg1)) n ch := by
  have e1 : W4 m c (Proc.devRef .tc main_v15)
      = takeRows (F := Ideal) (W3 m c (Proc.devRef .tc main_v2)) (W3 m c (Proc.devRef .tc main_v14)) := by
    show StableHlo.after hostOps1_1 (W3 m c) (Proc.devRef .tc main_v15) = _
    exact after_hostOps1_1_v15 (F := Ideal) (W3 m c)
  have e2 : W3 m c (Proc.devRef .tc main_v14) = flatIdx (m ((c : Thread nD τ).loc main_arg1)) := by
    show StableHlo.after hostOps1 (W2 m c) (Proc.devRef .tc main_v14) = _
    rw [after_hostOps1_v14 (F := Ideal) (W2 m c), W2_main_arg1 m c]
  rw [e1, e2, takeRows_flatIdx _ h, W3_main_v2 m c]
  exact table_apply m c _ n ch

/-! ## The result -/

/-- The scalar result is the one entry of the second region's result array. -/
theorem result_scalar (c : Dev nD) (i : S_.Idx) :
    W6 m c (Proc.devRef .tc main_v17) i = W5 m c (Proc.devRef .tc main_v16) (ix2 (0 : Fin 1) (0 : Fin 1)) := by
  have e : W6 m c (Proc.devRef .tc main_v17) = shapeCast S_ (W5 m c (Proc.devRef .tc main_v16)) shapeCasts_S1x1_S_ := by
    show StableHlo.after hostOps2 (W5 m c) (Proc.devRef .tc main_v17) = _
    after_results; rfl
  rw [e]
  refine shapeCast_apply _ _ i (ix2 (0 : Fin 1) (0 : Fin 1)) ?_
  have h1 : (S1x1.rowMajor (ix2 (0 : Fin 1) (0 : Fin 1))).val < S1x1.numel := (S1x1.rowMajor _).isLt
  have h2 : (S_.rowMajor i).val < S_.numel := (S_.rowMajor i).isLt
  have e1 : S1x1.numel = 1 := by decide
  have e2 : S_.numel = 1 := by decide
  exact (Nat.lt_one_iff.mp (lt_of_lt_of_eq h1 e1)).trans (Nat.lt_one_iff.mp (lt_of_lt_of_eq h2 e2)).symm

/-- The program's scalar result is the specification's total of its three arguments. -/
theorem kernel_result (c : Dev nD) (h : Cert.Spec.InRange (m ((c : Thread nD τ).loc main_arg1))) :
    W6 m c (Proc.devRef .tc main_v17)
      = fun _ => Cert.Spec.total (m ((c : Thread nD τ).loc main_arg0)) (m ((c : Thread nD τ).loc main_arg1)) (m ((c : Thread nD τ).loc main_arg2)) := by
  funext i
  rw [result_scalar m c i, W5_arr m c 2, result_arr (entry1 m) c]
  refine (accAt_total (entry1 m) c (W4 m c (Proc.devRef .tc main_v15)) (m ((c : Thread nD τ).loc main_arg2)) rfl (W4_main_arg2 m c)).trans ?_
  show @Eq EReal _ (Cert.Spec.total _ _ _)
  unfold Cert.Spec.total Cert.Spec.term
  refine Finset.sum_congr rfl fun n _ => Finset.sum_congr rfl fun ch _ => ?_
  rw [gathered_apply m c h n ch]

/-- The run of the kernel's program with its result named: under the range condition it ends with the scalar result at the
    specification's total and the three arguments as launched. -/
theorem kernel_run (ρ : Dev nD → PrngReg) (h : ∀ c : Dev nD, Cert.Spec.InRange (m ((c : Thread nD τ).loc main_arg1))) :
    θ_run (defs (F := Ideal)) (onTc (τ := τ) (main (F := Ideal))) ⟨m, fun _ => 0, ρ⟩ fun r => ∀ c : Dev nD,
      r.2.mem ((c.tc : Thread nD τ).loc main_v17)
        = (fun _ => Cert.Spec.total (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun r hr c =>
    ⟨(hr c _ (mem_uc main_v17 (by decide))).trans (kernel_result m c (h c)),
     (hr c _ (mem_uc main_arg0 (by decide))).trans (W6_main_arg0 m c),
     (hr c _ (mem_uc main_arg1 (by decide))).trans (W6_main_arg1 m c),
     (hr c _ (mem_uc main_arg2 (by decide))).trans (W6_main_arg2 m c)⟩)
    (run_all (F := Ideal) m ρ)

end Cert.KernelIdeal.Hand

end
-- ==== Proof.RefValue.lean ====
/-
  The reference program's value, read one stage at a time, is the specification's total.

  Per axis k the program wraps a negative coordinate by adding 96 (compare with 0, add, select); a coordinate in
  0 … 95 is not negative, so the select keeps it. The three wrapped columns are laid side by side again, and the gather
  with collapsed axes 1, 2, 3 of the [128, 96, 96, 96] volume reads, at result position (ch, n), the volume at channel
  ch and at the three components of point n's start index, each read signed and clamped into 0 … 95; in range the clamp
  moves nothing, so the entry read is volume[ch, p₀, p₁, p₂], the specification's sample. Division by the word that
  denotes 200 is multiplication by 1/200 on every extended real. The difference is squared, and the sum over both axes
  from 0 is the sum over the index set [128, 100000], which splits into the double sum over channels and points;
  sums of extended reals commute, so it is the sum over points then channels.
-/
import proofs.«407288_j86517821210741_1_alg».proof.Proof.Gen.ReferenceIdeal.Run
import proofs.«407288_j86517821210741_1_alg».proof.Proof.Gen.ReferenceIdeal.Read
import proofs.«407288_j86517821210741_1_alg».proof.Proof.Spec
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

variable {F : FTy → Type} [FloatOps F]

/-- A signed word that is not negative is not below zero: the comparison's bit is 0. -/
theorem slt_zero_of_nonneg (w : BitVec 32) (h : 0 ≤ w.toInt) : IntOp.cmpi .slt w 0#32 = 0#1 := by
  unfold IntOp.cmpi
  have : w.slt 0#32 = false := by
    simp only [BitVec.slt, BitVec.toInt_zero, decide_eq_false_iff_not, not_lt]
    exact h
  simp only [this]
  rfl

/-- Column 0 of the points, wrapped: a coordinate in range is left as it is. -/
theorem wrap0 (pts : IVec S100000x3 32) (h : Cert.Spec.InRange pts) (n : Fin 100000) :
    val_main_v11 (F := F) pts (ix1 n) = pts (ix2 n (0 : Fin 3)) := by
  have e : idx_main_v1 (idx_main_v2 (ix1 n)) = ix2 n (0 : Fin 3) :=
    funext fun a => Fin.ext (by match a with | ⟨0, _⟩ => exact Nat.div_one _ | ⟨1, _⟩ => rfl)
  rw [val_main_v11_apply, val_main_v8_apply, val_main_v7_apply, val_main_c_apply, val_main_v2_apply, val_main_v1_apply, e,
    slt_zero_of_nonneg _ (h n 0).1, select_zero]

/-- Column 1 of the points, wrapped: a coordinate in range is left as it is. -/
theorem wrap1 (pts : IVec S100000x3 32) (h : Cert.Spec.InRange pts) (n : Fin 100000) :
    val_main_v16 (F := F) pts (ix1 n) = pts (ix2 n (1 : Fin 3)) := by
  have e : idx_main_v3 (idx_main_v4 (ix1 n)) = ix2 n (1 : Fin 3) :=
    funext fun a => Fin.ext (by match a with | ⟨0, _⟩ => exact Nat.div_one _ | ⟨1, _⟩ => rfl)
  rw [val_main_v16_apply, val_main_v13_apply, val_main_v12_apply, val_main_c_1_apply, val_main_v4_apply, val_main_v3_apply, e,
    slt_zero_of_nonneg _ (h n 1).1, select_zero]

/-- Column 2 of the points, wrapped: a coordinate in range is left as it is. -/
theorem wrap2 (pts : IVec S100000x3 32) (h : Cert.Spec.InRange pts) (n : Fin 100000) :
    val_main_v21 (F := F) pts (ix1 n) = pts (ix2 n (2 : Fin 3)) := by
  have e : idx_main_v5 (idx_main_v6 (ix1 n)) = ix2 n (2 : Fin 3) :=
    funext fun a => Fin.ext (by match a with | ⟨0, _⟩ => exact Nat.div_one _ | ⟨1, _⟩ => rfl)
  rw [val_main_v21_apply, val_main_v18_apply, val_main_v17_apply, val_main_c_3_apply, val_main_v6_apply, val_main_v5_apply, e,
    slt_zero_of_nonneg _ (h n 2).1, select_zero]

/-- The three wrapped columns laid side by side: entry (n, 0) is column 0 at n. -/
theorem cat0 (pts : IVec S100000x3 32) (n : Fin 100000) :
    val_main_v25 (F := F) pts (ix2 n (0 : Fin 3)) = val_main_v11 (F := F) pts (ix1 n) := by
  have e : idx_main_v22 (ix2 n (0 : Fin 1)) = ix1 n := funext fun a => Fin.ext (by match a with | ⟨0, _⟩ => rfl)
  rw [← e, ← val_main_v22_apply]
  unfold val_main_v25
  exact concatenate_apply_piece (t := S100000x3) (1 : Fin 2)
    [⟨S100000x1, val_main_v22 (F := F) pts⟩, ⟨S100000x1, val_main_v23 (F := F) pts⟩, ⟨S100000x1, val_main_v24 (F := F) pts⟩]
    concatenates_S100000x1_S100000x1_S100000x1_S100000x3_d1 (ix2 n (0 : Fin 3))
    0 (by simp) S100000x1 (val_main_v22 (F := F) pts) rfl rfl 0 rfl (ix2 n (0 : Fin 1))
    (fun b hb => by match b with | ⟨0, _⟩ => rfl | ⟨1, _⟩ => exact absurd rfl hb) rfl

/-- Entry (n, 1) is column 1 at n. -/
theorem cat1 (pts : IVec S100000x3 32) (n : Fin 100000) :
    val_main_v25 (F := F) pts (ix2 n (1 : Fin 3)) = val_main_v16 (F := F) pts (ix1 n) := by
  have e : idx_main_v23 (ix2 n (0 : Fin 1)) = ix1 n := funext fun a => Fin.ext (by match a with | ⟨0, _⟩ => rfl)
  rw [← e, ← val_main_v23_apply]
  unfold val_main_v25
  exact concatenate_apply_piece (t := S100000x3) (1 : Fin 2)
    [⟨S100000x1, val_main_v22 (F := F) pts⟩, ⟨S100000x1, val_main_v23 (F := F) pts⟩, ⟨S100000x1, val_main_v24 (F := F) pts⟩]
    concatenates_S100000x1_S100000x1_S100000x1_S100000x3_d1 (ix2 n (1 : Fin 3))
    1 (by simp) S100000x1 (val_main_v23 (F := F) pts) rfl rfl 1 rfl (ix2 n (0 : Fin 1))
    (fun b hb => by match b with | ⟨0, _⟩ => rfl | ⟨1, _⟩ => exact absurd rfl hb) rfl

/-- Entry (n, 2) is column 2 at n. -/
theorem cat2 (pts : IVec S100000x3 32) (n : Fin 100000) :
    val_main_v25 (F := F) pts (ix2 n (2 : Fin 3)) = val_main_v21 (F := F) pts (ix1 n) := by
  have e : idx_main_v24 (ix2 n (0 : Fin 1)) = ix1 n := funext fun a => Fin.ext (by match a with | ⟨0, _⟩ => rfl)
  rw [← e, ← val_main_v24_apply]
  unfold val_main_v25
  exact concatenate_apply_piece (t := S100000x3) (1 : Fin 2)
    [⟨S100000x1, val_main_v22 (F := F) pts⟩, ⟨S100000x1, val_main_v23 (F := F) pts⟩, ⟨S100000x1, val_main_v24 (F := F) pts⟩]
    concatenates_S100000x1_S100000x1_S100000x1_S100000x3_d1 (ix2 n (2 : Fin 3))
    2 (by simp) S100000x1 (val_main_v24 (F := F) pts) rfl rfl 2 rfl (ix2 n (0 : Fin 1))
    (fun b hb => by match b with | ⟨0, _⟩ => rfl | ⟨1, _⟩ => exact absurd rfl hb) rfl

/-- The gather's dimension numbers: offset axis 0 of the result reads the volume's channel axis whole; axes 1, 2, 3 of the
    volume are collapsed and take their start from the three components of the start index. -/
abbrev gd : GatherDims S128x96x96x96 S100000x3 S128x100000 :=
  gather_S128x96x96x96_S100000x3_S128x100000_0_123_n_n_123_1_128111

/-- On the channel axis the operand index is the result's channel coordinate. -/
theorem gather_axis0 (idx : IVec S100000x3 32) (j : S128x100000.Idx) :
    (gd.operandIdx j idx (0 : Fin 4)).val = (j 0).val := by
  show gd.start j idx 0 + gd.batchCoord j 0 + gd.offCoord j 0 = _
  rw [GatherDims.batchCoord_eq_zero _ _ _ List.not_mem_nil]
  unfold GatherDims.start
  rw [dif_neg (show ¬(0 : Fin 4) ∈ gd.startIndexMap by decide)]
  unfold GatherDims.offCoord
  rw [dif_pos (show (0 : Fin 4) ∈ gd.sKept by decide), Nat.add_zero, Nat.zero_add]
  rfl

/-- The start-indices entry result index (ch, n) reads for component k is (n, k). -/
theorem gather_siIdx (ch : Fin 128) (n : Fin 100000) (k : Fin 3) :
    gd.siIdx (ix2 ch n) k = ix2 n k := by
  funext b; refine Fin.ext ?_
  match b with
  | ⟨0, _⟩ => rfl
  | ⟨1, _⟩ => rfl

/-- On the first spatial axis the operand index is the start index's component 0, read signed and clamped into 0 … 95. -/
theorem gather_axis1 (idx : IVec S100000x3 32) (ch : Fin 128) (n : Fin 100000) :
    (gd.operandIdx (ix2 ch n) idx (1 : Fin 4)).val = min (idx (ix2 n (0 : Fin 3))).toInt.toNat 95 := by
  show gd.start (ix2 ch n) idx 1 + gd.batchCoord (ix2 ch n) 1 + gd.offCoord (ix2 ch n) 1 = _
  rw [GatherDims.batchCoord_eq_zero _ _ _ List.not_mem_nil,
    GatherDims.offCoord_eq_zero _ _ _ (show ¬(1 : Fin 4) ∈ gd.sKept by decide)]
  simp only [Nat.add_zero]
  unfold GatherDims.start
  rw [dif_pos (show (1 : Fin 4) ∈ gd.startIndexMap by decide)]
  rw [show (⟨List.idxOf (1 : Fin 4) gd.startIndexMap, List.idxOf_lt_length_iff.2 (show (1 : Fin 4) ∈ gd.startIndexMap by decide)⟩ : Fin gd.startIndexMap.length) = (0 : Fin 3) from rfl,
    gather_siIdx]
  rfl

/-- On the second spatial axis the operand index is the start index's component 1, read signed and clamped into 0 … 95. -/
theorem gather_axis2 (idx : IVec S100000x3 32) (ch : Fin 128) (n : Fin 100000) :
    (gd.operandIdx (ix2 ch n) idx (2 : Fin 4)).val = min (idx (ix2 n (1 : Fin 3))).toInt.toNat 95 := by
  show gd.start (ix2 ch n) idx 2 + gd.batchCoord (ix2 ch n) 2 + gd.offCoord (ix2 ch n) 2 = _
  rw [GatherDims.batchCoord_eq_zero _ _ _ List.not_mem_nil,
    GatherDims.offCoord_eq_zero _ _ _ (show ¬(2 : Fin 4) ∈ gd.sKept by decide)]
  simp only [Nat.add_zero]
  unfold GatherDims.start
  rw [dif_pos (show (2 : Fin 4) ∈ gd.startIndexMap by decide)]
  rw [show (⟨List.idxOf (2 : Fin 4) gd.startIndexMap, List.idxOf_lt_length_iff.2 (show (2 : Fin 4) ∈ gd.startIndexMap by decide)⟩ : Fin gd.startIndexMap.length) = (1 : Fin 3) from rfl,
    gather_siIdx]
  rfl

/-- On the third spatial axis the operand index is the start index's component 2, read signed and clamped into 0 … 95. -/
theorem gather_axis3 (idx : IVec S100000x3 32) (ch : Fin 128) (n : Fin 100000) :
    (gd.operandIdx (ix2 ch n) idx (3 : Fin 4)).val = min (idx (ix2 n (2 : Fin 3))).toInt.toNat 95 := by
  show gd.start (ix2 ch n) idx 3 + gd.batchCoord (ix2 ch n) 3 + gd.offCoord (ix2 ch n) 3 = _
  rw [GatherDims.batchCoord_eq_zero _ _ _ List.not_mem_nil,
    GatherDims.offCoord_eq_zero _ _ _ (show ¬(3 : Fin 4) ∈ gd.sKept by decide)]
  simp only [Nat.add_zero]
  unfold GatherDims.start
  rw [dif_pos (show (3 : Fin 4) ∈ gd.startIndexMap by decide)]
  rw [show (⟨List.idxOf (3 : Fin 4) gd.startIndexMap, List.idxOf_lt_length_iff.2 (show (3 : Fin 4) ∈ gd.startIndexMap by decide)⟩ : Fin gd.startIndexMap.length) = (2 : Fin 3) from rfl,
    gather_siIdx]
  rfl

/-- The gather read at (ch, n): the volume at channel ch and at the three start-index components of point n, each read
    signed and clamped into 0 … 95 (the clamp that makes the one-voxel slice fit). -/
theorem gather_apply {α : Type} (x : S128x96x96x96.Idx → α) (idx : IVec S100000x3 32) (ch : Fin 128) (n : Fin 100000)
    (c0 c1 c2 : Fin 96)
    (h0 : min (idx (ix2 n (0 : Fin 3))).toInt.toNat 95 = c0.val)
    (h1 : min (idx (ix2 n (1 : Fin 3))).toInt.toNat 95 = c1.val)
    (h2 : min (idx (ix2 n (2 : Fin 3))).toInt.toNat 95 = c2.val) :
    Host.gather gd x idx (ix2 ch n) = x (ix4 ch c0 c1 c2) := by
  unfold Host.gather
  congr 1
  funext a
  refine Fin.ext ?_
  match a with
  | ⟨0, _⟩ => exact gather_axis0 idx (ix2 ch n)
  | ⟨1, _⟩ => exact (gather_axis1 idx ch n).trans h0
  | ⟨2, _⟩ => exact (gather_axis2 idx ch n).trans h1
  | ⟨3, _⟩ => exact (gather_axis3 idx ch n).trans h2

/-- Dropping the volume's leading unit axis: entry (ch, a, b, c) of the [128, 96, 96, 96] array is entry (0, ch, a, b, c). -/
theorem drop_unit (img : FVec F S1x128x96x96x96 .f32) (ch : Fin 128) (a b c : Fin 96) :
    val_main_v0 (F := F) img (ix4 ch a b c) = img (ix5 (0 : Fin 1) ch a b c) := by
  rw [val_main_v0_apply]
  congr 1
  funext d
  refine Fin.ext ?_
  have hch := ch.isLt; have ha := a.isLt; have hb := b.isLt; have hc := c.isLt
  match d with
  | ⟨0, _⟩ => rfl
  | ⟨1, _⟩ => show (((ch.val * 96 + a.val) * 96 + b.val) * 96 + c.val) / 884736 % 128 = ch.val; omega
  | ⟨2, _⟩ => show (((ch.val * 96 + a.val) * 96 + b.val) * 96 + c.val) / 9216 % 96 = a.val; omega
  | ⟨3, _⟩ => show (((ch.val * 96 + a.val) * 96 + b.val) * 96 + c.val) / 96 % 96 = b.val; omega
  | ⟨4, _⟩ => show (((ch.val * 96 + a.val) * 96 + b.val) * 96 + c.val) % 96 = c.val; omega

/-- The start index of point n on axis k, read signed and clamped into 0 … 95, is the point's coordinate when the point is
    in range: the clamp moves nothing. -/
theorem start_eq (pts : IVec S100000x3 32) (h : Cert.Spec.InRange pts) (n : Fin 100000) (k : Fin 3)
    (hk : val_main_v25 (F := F) pts (ix2 n k) = pts (ix2 n k)) :
    min (val_main_v25 (F := F) pts (ix2 n k)).toInt.toNat 95 = (Cert.Spec.coord pts n k).val := by
  rw [hk]
  have h1 := Cert.Spec.coord_val h n k
  have h2 := (Cert.Spec.coord pts n k).isLt
  omega

/-- The gathered array at (ch, n) is the volume's entry that point n and channel ch name. -/
theorem sampled (img : FVec Ideal S1x128x96x96x96 .f32) (pts : IVec S100000x3 32) (h : Cert.Spec.InRange pts)
    (ch : Fin 128) (n : Fin 100000) :
    val_main_v26 (F := Ideal) img pts (ix2 ch n) = Cert.Spec.sample img pts n ch := by
  unfold val_main_v26
  rw [gather_apply (val_main_v0 (F := Ideal) img) (val_main_v25 (F := Ideal) pts) ch n
    (Cert.Spec.coord pts n 0) (Cert.Spec.coord pts n 1) (Cert.Spec.coord pts n 2)
    (start_eq pts h n 0 ((cat0 pts n).trans (wrap0 pts h n)))
    (start_eq pts h n 1 ((cat1 pts n).trans (wrap1 pts h n)))
    (start_eq pts h n 2 ((cat2 pts n).trans (wrap2 pts h n))), drop_unit]
  rfl

/-- The word 0x43480000 denotes the real 200. -/
theorem ofBits_200 : Ideal.ofBits .f32 0x43480000#32 = ((200 : ℝ) : EReal) := by
  simp [Ideal.ofBits, Ideal.ieee, -EReal.coe_mul]; norm_num

/-- The feature divided by 200 and transposed, at (ch, n): feature[n, ch] · (1/200), on every extended real. -/
theorem scaled (feat : FVec Ideal S100000x128 .f32) (ch : Fin 128) (n : Fin 100000) :
    val_main_v29 (F := Ideal) feat (ix2 ch n) = feat (ix2 n ch) * ((1 / 200 : ℝ) : EReal) := by
  have e : idx_main_v29 (ix2 ch n) = ix2 n ch :=
    funext fun a => Fin.ext (by match a with | ⟨0, _⟩ => rfl | ⟨1, _⟩ => rfl)
  rw [val_main_v29_apply, e, val_main_v28_apply, val_main_v27_apply, val_main_cst_apply, Ideal.hostDivf_def, Ideal.ofBits_def,
    ofBits_200, Ideal.div_coe (by norm_num : (200 : ℝ) ≠ 0)]

/-- The squared difference at (ch, n) is the specification's term of point n and channel ch. -/
theorem squared (img : FVec Ideal S1x128x96x96x96 .f32) (pts : IVec S100000x3 32) (feat : FVec Ideal S100000x128 .f32)
    (h : Cert.Spec.InRange pts) (ch : Fin 128) (n : Fin 100000) :
    val_main_v31 (F := Ideal) img pts feat (ix2 ch n) = Cert.Spec.term img pts feat n ch := by
  rw [val_main_v31_apply, val_main_v30_apply, sampled img pts h ch n, scaled feat ch n, Ideal.mulf_def, Ideal.subf_def]
  rfl

/-- The reference's result: 0 plus the sum of the squared differences over the [128, 100000] index set, which is the
    double sum over channels then points, and (sums of extended reals commute) over points then channels. -/
theorem ref_total (img : FVec Ideal S1x128x96x96x96 .f32) (pts : IVec S100000x3 32) (feat : FVec Ideal S100000x128 .f32)
    (h : Cert.Spec.InRange pts) :
    val_main_v32 (F := Ideal) img pts feat ValueIdx.ix0 = Cert.Spec.total img pts feat := by
  rw [val_main_v32_apply, val_main_cst_5_apply, Ideal.ofBits_def, Ideal.ofBits_zero_f32, zero_add, sum_idx2, Finset.sum_comm]
  unfold Cert.Spec.total
  exact Finset.sum_congr rfl fun n _ => Finset.sum_congr rfl fun ch _ => squared img pts feat h ch n

/-- Every weakly fair execution of the reference from a memory whose points are in range ends with its result at the
    specification's total of the three arguments, the arguments unchanged. -/
theorem ref_run (m : (ℓ : Loc nD τ sig) → Buf (Elt Ideal) ℓ) (ρ : Dev nD → PrngReg)
    (h : ∀ c : Dev nD, Cert.Spec.InRange (m ((c.tc : Thread nD τ).loc main_arg1))) :
    θ_run (defs (F := Ideal)) (onTc (τ := τ) (main (F := Ideal))) ⟨m, fun _ => 0, ρ⟩ fun r => ∀ c : Dev nD,
      r.2.mem ((c.tc : Thread nD τ).loc main_v32)
        = (fun _ => Cert.Spec.total (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ hr c => ⟨(hr c).1.trans (by
        rw [val_main_v32_eq]
        funext i
        rw [eq_ix0 i]
        exact ref_total _ _ _ (h c)), (hr c).2⟩)
    (Cert.ReferenceIdeal.Value.run (F := Ideal) m ρ)

end Cert.ReferenceIdeal.RefValue

end
-- ==== Proof.PreRange.lean ====
/-
  The precondition's two integer conjuncts, read back as facts about the point words.

  The precondition is a single bit: the conjunction of four "every element satisfies …" reductions, each a
  fold by `and` of a one-bit array from the constant 1. When the bit is 1 every conjunct is 1, and a fold by `and` that is
  1 met only 1s, so at every index (n, k) of the [100000, 3] point array the signed compares `pts ≥ 0` and `pts < 96` against
  the broadcast constants are both 1. A signed compare that is 1 is the order of the signed values: 0 ≤ toInt and
  toInt < 96. The two float conjuncts (every |entry| below +inf) are not used.
-/
import proofs.«407288_j86517821210741_1_alg».proof.Pre_finite_inputs
import proofs.«407288_j86517821210741_1_alg».proof.Proof.Gen.Pre_finite_inputs
import proofs.«407288_j86517821210741_1_alg».proof.Proof.Spec
import Idealize.ShloMosaic.Lib.ReduceAll

noncomputable section

namespace Cert.PreRange

open Idealize.ShloMosaic Idealize.ShloMosaic.ValueIdx
open Cert.Pre_finite_inputs

/-- The scalar shape has one index. -/
instance : Subsingleton S_.Idx := ⟨fun a b => funext fun d => d.elim0⟩

/-- A one-bit word made from a Boolean is 1 exactly when the Boolean holds. -/
theorem ofBool_eq_one (b : Bool) : BitVec.ofBool b = 1#1 ↔ b = true := by cases b <;> decide

/-- A word whose signed compares `w ≥ 0` and `w < 96` are both 1 has its signed value in 0 … 95. -/
theorem toInt_range (w : BitVec 32) (h0 : IntOp.cmpi .sge w (0#32) = 1#1) (h1 : IntOp.cmpi .slt w (96#32) = 1#1) :
    0 ≤ w.toInt ∧ w.toInt < 96 := by
  unfold IntOp.cmpi at h0 h1
  rw [ofBool_eq_one] at h0 h1
  simp only [BitVec.slt, BitVec.sle, decide_eq_true_eq] at h0 h1
  have z : (0#32 : BitVec 32).toInt = 0 := by decide
  have n : (96#32 : BitVec 32).toInt = 96 := by decide
  rw [z] at h0
  rw [n] at h1
  exact ⟨h0, h1⟩

/-- THE PRECONDITION DECODED: when the precondition's bit is 1, every coordinate of every point lies in 0 … 95. -/
theorem inRange_of_pre {F : FTy → Type} [FloatOps F] [Cert.Pre_finite_inputs.Facts]
    (img : FVec F S1x128x96x96x96 .f32) (pts : IVec S100000x3 32) (feat : FVec F S100000x128 .f32)
    (h : Cert.Pre_finite_inputs.fn (F := F) img pts feat = fun _ => 1#1) : Cert.Spec.InRange pts := by
  have e := congrFun h ValueIdx.ix0
  dsimp only [Cert.Pre_finite_inputs.fn, Cert.Pre_finite_inputs.fn_part1, andi] at e
  -- the conjunction of the four reductions: keep the third (pts ≥ 0) and the fourth (pts < 96)
  obtain ⟨e12, elt⟩ := IntOp.andi_eq_one.1 e
  obtain ⟨-, ege⟩ := IntOp.andi_eq_one.1 e12
  intro n k
  have hge := Host.reduce_andi_all _ _ _ _ _ ege (ix2 n k)
  have hlt := Host.reduce_andi_all _ _ _ _ _ elt (ix2 n k)
  exact toInt_range (pts (ix2 n k)) hge hlt

end Cert.PreRange

end
-- ==== Proof.lean ====
/-
  Both programs compute, for 100000 points with three integer coordinates each and a [128, 96, 96, 96] volume, the sum
  over points n and channels ch of (volume[ch, p₀, p₁, p₂] − feature[n, ch] / 200)².

  The kernel's program reshapes the volume to [128, 884736], transposes it in a first kernel region, forms the flat row
  index 9216·p₀ + 96·p₁ + p₂ of every point, selects those rows, and in a second kernel region accumulates the squared
  differences with feature · (1/200) block by block in a one-word scratch. The reference indexes the volume by the three
  coordinates directly and sums over the whole [128, 100000] array. They agree where every coordinate is a position
  0 … 95 on its axis — the precondition's integer conjunct: there the flat index names the same voxel, x / 200 is
  x · (1/200) on every extended real, and the two sums are regroupings of one sum of extended reals.

  The frames (the program runs to the end, faults nowhere, leaves its arguments as launched) come from one run of the
  program's items — host lines and the two regions — that ends with every buffer at named contents; the kernel's value
  is read off the same run. The reference's run and its stages read at an index are imported.
-/
import proofs.«407288_j86517821210741_1_alg».proof.Defs
import proofs.«407288_j86517821210741_1_alg».proof.Proof.Gen.Kernel
import proofs.«407288_j86517821210741_1_alg».proof.Proof.Gen.KernelIdeal
import proofs.«407288_j86517821210741_1_alg».proof.Proof.Gen.ReferenceIdeal
import proofs.«407288_j86517821210741_1_alg».proof.Proof.Gen.Pre_finite_inputs
import proofs.«407288_j86517821210741_1_alg».proof.Proof.Gen.ReferenceIdeal.Run
import proofs.«407288_j86517821210741_1_alg».proof.Proof.K.Run
import proofs.«407288_j86517821210741_1_alg».proof.Proof.KI.Run
import proofs.«407288_j86517821210741_1_alg».proof.Proof.KI.KernelValue
import proofs.«407288_j86517821210741_1_alg».proof.Proof.RefValue
import proofs.«407288_j86517821210741_1_alg».proof.Proof.PreRange
import Idealize.ShloMosaic.PureOps.BitExact
import Idealize.ShloMosaic.PureOps.IdealRules
import Idealize.ShloMosaic.Adequacy
import Idealize.ShloMosaic.Init

noncomputable section

namespace Cert.Proof

open Idealize.ShloMosaic Idealize.SL.Sem

/-- The word-level program runs and leaves its three arguments as launched: they are unscoped buffers, and the run
    ends with each at its launch contents. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W6_main_arg0 m c),
     (h c _ (Cert.Kernel.Hand.mem_uc Cert.Kernel.main_arg1 (by decide))).trans (Cert.Kernel.Hand.W6_main_arg1 m c),
     (h c _ (Cert.Kernel.Hand.mem_uc Cert.Kernel.main_arg2 (by decide))).trans (Cert.Kernel.Hand.W6_main_arg2 m c)⟩)
    (Cert.Kernel.Hand.run_all (F := Bits) m ρ)

/-- The same for the idealized program. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W6_main_arg0 m c),
     (h c _ (Cert.KernelIdeal.Hand.mem_uc Cert.KernelIdeal.main_arg1 (by decide))).trans (Cert.KernelIdeal.Hand.W6_main_arg1 m c),
     (h c _ (Cert.KernelIdeal.Hand.mem_uc Cert.KernelIdeal.main_arg2 (by decide))).trans (Cert.KernelIdeal.Hand.W6_main_arg2 m c)⟩)
    (Cert.KernelIdeal.Hand.run_all (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's scale, the single-precision word nearest 1/200, is named and
    read as the rational 1/200. -/
theorem preserves : Cert.preserves_Kernel_KernelIdeal :=
  IdealRules.named_const.statement Cert.KernelIdeal.κ "inv_200" .f32 0x3BA3D70A#32 ((1 / 200 : ℝ) : EReal) rfl

/-- Under the precondition every point coordinate is a position 0 … 95 on its axis. Then the kernel's program ends with
    its scalar result at the specification's total of its arguments, and the reference ends with its result at the same
    total of ITS arguments, which agree with the kernel's. -/
theorem algebraic : Cert.algebraic_KernelIdeal_ReferenceIdeal := by
  intro m ρ m' ρ' hpre hagree
  have hr : ∀ c : Dev Cert.KernelIdeal.nD,
      Cert.Spec.InRange (m ((c.tc : Thread Cert.KernelIdeal.nD Cert.KernelIdeal.τ).loc Cert.KernelIdeal.main_arg1)) :=
    fun c => Cert.PreRange.inRange_of_pre _ _ _ (hpre c)
  have hr' : ∀ c : Dev Cert.ReferenceIdeal.nD,
      Cert.Spec.InRange (m' ((c.tc : Thread Cert.ReferenceIdeal.nD Cert.ReferenceIdeal.τ).loc Cert.ReferenceIdeal.main_arg1)) :=
    fun c => by rw [(hagree c).2.1]; exact hr c
  refine ⟨_, Cert.KernelIdeal.Hand.kernel_run m ρ hr, ?_⟩
  refine (θ_run Cert.ReferenceIdeal.defs _ _).mono (fun r h c => ⟨(h c).1.trans ?_, (h c).2⟩)
    (Cert.ReferenceIdeal.RefValue.ref_run m' ρ' hr')
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
